-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S5x128x128 : Shape := ⟨3, ![5, 128, 128]⟩
abbrev S5x128 : Shape := ⟨2, ![5, 128]⟩
abbrev S2x625000 : Shape := ⟨2, ![2, 625000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_arg4 : FVec F S5x128 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg4
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  main_v23

def fn {F : FTy → Type} [FloatOps F] (main_arg0 : FVec F S200000x128 .f32) (main_arg1 : FVec F S5x128x128 .f32) (main_arg2 : FVec F S5x128 .f32) (main_arg3 : FVec F S5x128x128 .f32) (main_arg4 : FVec F S5x128 .f32) (main_arg5 : IVec S2x625000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S5x128x128 .f32 := Host.absf main_arg1
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg2
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x128 .f32 := Host.absf main_arg3
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg4 main_v13 main_v16
-- ==== Kernel.lean ====
abbrev S200000x128 : Shape := ⟨2, ![200000, 128]⟩
abbrev S5x128x128 : Shape := ⟨3, ![5, 128, 128]⟩
abbrev S5x128 : Shape := ⟨2, ![5, 128]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S200000 : Shape := ⟨1, ![200000]⟩
abbrev S625000x1 : Shape := ⟨2, ![625000, 1]⟩
abbrev S625000x128 : Shape := ⟨2, ![625000, 128]⟩
abbrev S200000x1 : Shape := ⟨2, ![200000, 1]⟩
abbrev S1x5 : Shape := ⟨2, ![1, 5]⟩
abbrev S200000x5 : Shape := ⟨2, ![200000, 5]⟩
abbrev S4000x128 : Shape := ⟨2, ![4000, 128]⟩
abbrev S4000x5 : Shape := ⟨2, ![4000, 5]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x1 : Shape := ⟨2, ![4000, 1]⟩

abbrev nBuf : Space → Nat
  | .hbm => 47
  | .vmem => 12
  | .smem => 0
  | _ => 0

abbrev bufTy : (tb : Table) → Fin (tcTables nBuf tb) → BufTy
  | .hbm, ⟨0, _⟩ => ⟨S200000x128, .f32⟩
  | .hbm, ⟨1, _⟩ => ⟨S5x128x128, .f32⟩
  | .hbm, ⟨2, _⟩ => ⟨S5x128, .f32⟩
  | .hbm, ⟨3, _⟩ => ⟨S5x128x128, .f32⟩
  | .hbm, ⟨4, _⟩ => ⟨S5x128, .f32⟩
  | .hbm, ⟨5, _⟩ => ⟨S2x625000, .i32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .f32⟩
  | .hbm, ⟨11, _⟩ => ⟨S625000, .f32⟩
  | .hbm, ⟨12, _⟩ => ⟨S_, .f32⟩
  | .hbm, ⟨13, _⟩ => ⟨S200000, .f32⟩
  | .hbm, ⟨14, _⟩ => ⟨S625000x1, .i32⟩
  | .hbm, ⟨15, _⟩ => ⟨S200000, .f32⟩
  | .hbm, ⟨16, _⟩ => ⟨S_, .i32⟩
  | .hbm, ⟨17, _⟩ => ⟨S625000, .i32⟩
  | .hbm, ⟨18, _⟩ => ⟨S625000, .i1⟩
  | .hbm, ⟨19, _⟩ => ⟨S_, .i32⟩
  | .hbm, ⟨20, _⟩ => ⟨S625000, .i32⟩
  | .hbm, ⟨21, _⟩ => ⟨S625000, .i32⟩
  | .hbm, ⟨22, _⟩ => ⟨S625000, .i32⟩
  | .hbm, ⟨23, _⟩ => ⟨S625000x1, .i32⟩
  | .hbm, ⟨24, _⟩ => ⟨S625000x128, .f32⟩
  | .hbm, ⟨25, _⟩ => ⟨S_, .f32⟩
  | .hbm, ⟨26, _⟩ => ⟨S200000x128, .f32⟩
  | .hbm, ⟨27, _⟩ => ⟨S625000x1, .i32⟩
  | .hbm, ⟨28, _⟩ => ⟨S200000x128, .f32⟩
  | .hbm, ⟨29, _⟩ => ⟨S_, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S200000x1, .f32⟩
  | .hbm, ⟨34, _⟩ => ⟨S200000x128, .f32⟩
  | .hbm, ⟨35, _⟩ => ⟨S200000x128, .f32⟩
  | .hbm, ⟨36, _⟩ => ⟨S200000, .i32⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S1x5, .i32⟩
  | .hbm, ⟨42, _⟩ => ⟨S200000x5, .i32⟩
  | .hbm, ⟨43, _⟩ => ⟨S200000x5, .i32⟩
  | .hbm, ⟨44, _⟩ => ⟨S200000x5, .i1⟩
  | .hbm, ⟨45, _⟩ => ⟨S200000x5, .f32⟩
  | .hbm, ⟨46, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x5, .f32⟩
  | .local _ .vmem, ⟨5, _⟩ => ⟨S4000x5, .f32⟩
  | .local _ .vmem, ⟨6, _⟩ => ⟨S5x128x128, .f32⟩
  | .local _ .vmem, ⟨7, _⟩ => ⟨S5x128, .f32⟩
  | .local _ .vmem, ⟨8, _⟩ => ⟨S5x128x128, .f32⟩
  | .local _ .vmem, ⟨9, _⟩ => ⟨S5x128, .f32⟩
  | .local _ .vmem, ⟨10, _⟩ => ⟨S4000x128, .f32⟩
  | .local _ .vmem, ⟨11, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S200000 : S_.BroadcastsInDim S200000 (![] : Fin 0 → Fin S200000.rank)
  bcast_S625000_S625000x1_0 : S625000.BroadcastsInDim S625000x1 (![0] : Fin 1 → Fin S625000x1.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S200000x1_S200000x5_0_1 : S200000x1.BroadcastsInDim S200000x5 (![0, 1] : Fin 2 → Fin S200000x5.rank)
  bcast_S1x5_S200000x5_0_1 : S1x5.BroadcastsInDim S200000x5 (![0, 1] : Fin 2 → Fin S200000x5.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x5_S4000x5_0_0 : ∀ a, (![0, 0] : Fin 2 → Nat) a + S4000x5.size a ≤ S4000x5.size a
  h_S4000x5 : 0 < S4000x5.numel
  shapeCasts_S4000x5_S4000x5 : S4000x5.ShapeCasts S4000x5
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x128_S1x128_0_0 : ∀ a, (![0, 0] : Fin 2 → Nat) a + S1x128.size a ≤ S5x128.size a
  h_S1x128 : 0 < S1x128.numel
  shapeCasts_S1x128_S128 : S1x128.ShapeCasts S128
  shapeCasts_S128_S1x128 : S128.ShapeCasts S1x128
  broadcasts_S1x128_S4000x128 : S1x128.Broadcasts S4000x128
  slices_S4000x5_o0_0_S4000x1 : S4000x5.Slices ![0, 0] S4000x1
  broadcasts_S4000x1_S4000x128 : S4000x1.Broadcasts S4000x128
  inb_S5x128x128_S1x128x128_1_0_0 : ∀ a, (![1, 0, 0] : Fin 3 → Nat) a + S1x128x128.size a ≤ S5x128x128.size a
  inb_S5x128_S1x128_1_0 : ∀ a, (![1, 0] : Fin 2 → Nat) a + S1x128.size a ≤ S5x128.size a
  slices_S4000x5_o0_1_S4000x1 : S4000x5.Slices ![0, 1] S4000x1
  inb_S5x128x128_S1x128x128_2_0_0 : ∀ a, (![2, 0, 0] : Fin 3 → Nat) a + S1x128x128.size a ≤ S5x128x128.size a
  inb_S5x128_S1x128_2_0 : ∀ a, (![2, 0] : Fin 2 → Nat) a + S1x128.size a ≤ S5x128.size a
  slices_S4000x5_o0_2_S4000x1 : S4000x5.Slices ![0, 2] S4000x1
  inb_S5x128x128_S1x128x128_3_0_0 : ∀ a, (![3, 0, 0] : Fin 3 → Nat) a + S1x128x128.size a ≤ S5x128x128.size a
  inb_S5x128_S1x128_3_0 : ∀ a, (![3, 0] : Fin 2 → Nat) a + S1x128.size a ≤ S5x128.size a
  slices_S4000x5_o0_3_S4000x1 : S4000x5.Slices ![0, 3] S4000x1
  inb_S5x128x128_S1x128x128_4_0_0 : ∀ a, (![4, 0, 0] : Fin 3 → Nat) a + S1x128x128.size a ≤ S5x128x128.size a
  inb_S5x128_S1x128_4_0 : ∀ a, (![4, 0] : Fin 2 → Nat) a + S1x128.size a ≤ S5x128.size a
  slices_S4000x5_o0_4_S4000x1 : S4000x5.Slices ![0, 4] S4000x1
  scatter_S200000_S625000x1_S625000_n_0_0_1_wf : ScatterDims.WF S200000 S625000x1 S625000 [] [0] [0] 1
  gather_S200000x128_S625000x1_S625000x128_1_0_n_n_0_1_1128_wf : GatherDims.WF S200000x128 S625000x1 S625000x128 [1] [0] [] [0] [] 1 ![1, 128]
  scatter_S200000x128_S625000x1_S625000x128_1_0_0_1_wf : ScatterDims.WF S200000x128 S625000x1 S625000x128 [1] [0] [0] 1
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x5.size a ≤ S200000x5.size a
  hwx0_2 : ∀ i : grid0.Coords, EltTy.bits .f32 = 32 ∨ (Rect.block (s := S200000x5) S4000x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128x128.size a ≤ S5x128x128.size a
  hwx0_3 : ∀ i : grid0.Coords, EltTy.bits .f32 = 32 ∨ (Rect.block (s := S5x128x128) S5x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128.size a ≤ S5x128.size a
  hwx0_4 : ∀ i : grid0.Coords, EltTy.bits .f32 = 32 ∨ (Rect.block (s := S5x128) S5x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128x128.size a ≤ S5x128x128.size a
  hwx0_5 : ∀ i : grid0.Coords, EltTy.bits .f32 = 32 ∨ (Rect.block (s := S5x128x128) S5x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x128.size a ≤ S5x128.size a
  hwx0_6 : ∀ i : grid0.Coords, EltTy.bits .f32 = 32 ∨ (Rect.block (s := S5x128) S5x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S200000x128.size a
  hwx0_7 : ∀ i : grid0.Coords, EltTy.bits .f32 = 32 ∨ (Rect.block (s := S200000x128) S4000x128.size (cc0_transform_7 i) (hinb0_7 i)).WholeWords (EltTy.packing .f32)

variable [Facts₀]

def scatter_S200000_S625000x1_S625000_n_0_0_1 : ScatterDims S200000 S625000x1 S625000 where
  updateWindowDims := []
  insertedWindowDims := [0]
  scatterDimsToOperandDims := [0]
  indexVectorDim := 1
  wf := scatter_S200000_S625000x1_S625000_n_0_0_1_wf
def gather_S200000x128_S625000x1_S625000x128_1_0_n_n_0_1_1128 : GatherDims S200000x128 S625000x1 S625000x128 where
  offsetDims := [1]
  collapsedSliceDims := [0]
  operandBatchingDims := []
  startIndicesBatchingDims := []
  startIndexMap := [0]
  indexVectorDim := 1
  sliceSizes := ![1, 128]
  wf := gather_S200000x128_S625000x1_S625000x128_1_0_n_n_0_1_1128_wf
def scatter_S200000x128_S625000x1_S625000x128_1_0_0_1 : ScatterDims S200000x128 S625000x1 S625000x128 where
  updateWindowDims := [1]
  insertedWindowDims := [0]
  scatterDimsToOperandDims := [0]
  indexVectorDim := 1
  wf := scatter_S200000x128_S625000x1_S625000x128_1_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_v21) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S4000x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S5x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S5x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S5x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S5x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000x128 : Shape := ⟨2, ![200000, 128]⟩
abbrev S5x128x128 : Shape := ⟨3, ![5, 128, 128]⟩
abbrev S5x128 : Shape := ⟨2, ![5, 128]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S200000 : Shape := ⟨1, ![200000]⟩
abbrev S625000x1 : Shape := ⟨2, ![625000, 1]⟩
abbrev S625000x128 : Shape := ⟨2, ![625000, 128]⟩
abbrev S200000x1 : Shape := ⟨2, ![200000, 1]⟩
abbrev S5x128x200000 : Shape := ⟨3, ![5, 128, 200000]⟩
abbrev S5x200000x128 : Shape := ⟨3, ![5, 200000, 128]⟩
abbrev S5x1x128 : Shape := ⟨3, ![5, 1, 128]⟩
abbrev S200000x2 : Shape := ⟨2, ![200000, 2]⟩

abbrev nBuf : Space → Nat
  | .hbm => 70
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S5x128x128, .f32⟩
  | .hbm, ⟨2, _⟩ => ⟨S5x128, .f32⟩
  | .hbm, ⟨3, _⟩ => ⟨S5x128x128, .f32⟩
  | .hbm, ⟨4, _⟩ => ⟨S5x128, .f32⟩
  | .hbm, ⟨5, _⟩ => ⟨S2x625000, .i32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .f32⟩
  | .hbm, ⟨11, _⟩ => ⟨S625000, .f32⟩
  | .hbm, ⟨12, _⟩ => ⟨S_, .f32⟩
  | .hbm, ⟨13, _⟩ => ⟨S200000, .f32⟩
  | .hbm, ⟨14, _⟩ => ⟨S625000x1, .i32⟩
  | .hbm, ⟨15, _⟩ => ⟨S200000, .f32⟩
  | .hbm, ⟨16, _⟩ => ⟨S_, .i32⟩
  | .hbm, ⟨17, _⟩ => ⟨S625000, .i32⟩
  | .hbm, ⟨18, _⟩ => ⟨S625000, .i1⟩
  | .hbm, ⟨19, _⟩ => ⟨S_, .i32⟩
  | .hbm, ⟨20, _⟩ => ⟨S625000, .i32⟩
  | .hbm, ⟨21, _⟩ => ⟨S625000, .i32⟩
  | .hbm, ⟨22, _⟩ => ⟨S625000, .i32⟩
  | .hbm, ⟨23, _⟩ => ⟨S625000x1, .i32⟩
  | .hbm, ⟨24, _⟩ => ⟨S625000x128, .f32⟩
  | .hbm, ⟨25, _⟩ => ⟨S_, .f32⟩
  | .hbm, ⟨26, _⟩ => ⟨S200000x128, .f32⟩
  | .hbm, ⟨27, _⟩ => ⟨S625000x1, .i32⟩
  | .hbm, ⟨28, _⟩ => ⟨S200000x128, .f32⟩
  | .hbm, ⟨29, _⟩ => ⟨S_, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S200000x1, .f32⟩
  | .hbm, ⟨34, _⟩ => ⟨S200000x128, .f32⟩
  | .hbm, ⟨35, _⟩ => ⟨S200000x128, .f32⟩
  | .hbm, ⟨36, _⟩ => ⟨S200000, .i32⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S5x128x200000, .f32⟩
  | .hbm, ⟨41, _⟩ => ⟨S5x200000x128, .f32⟩
  | .hbm, ⟨42, _⟩ => ⟨S5x1x128, .f32⟩
  | .hbm, ⟨43, _⟩ => ⟨S5x200000x128, .f32⟩
  | .hbm, ⟨44, _⟩ => ⟨S5x200000x128, .f32⟩
  | .hbm, ⟨45, _⟩ => ⟨S5x128x200000, .f32⟩
  | .hbm, ⟨46, _⟩ => ⟨S5x200000x128, .f32⟩
  | .hbm, ⟨47, _⟩ => ⟨S5x200000x128, .f32⟩
  | .hbm, ⟨48, _⟩ => ⟨S5x1x128, .f32⟩
  | .hbm, ⟨49, _⟩ => ⟨S5x200000x128, .f32⟩
  | .hbm, ⟨50, _⟩ => ⟨S5x200000x128, .f32⟩
  | .hbm, ⟨51, _⟩ => ⟨S200000, .i32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S_, .i32⟩
  | .hbm, ⟨60, _⟩ => ⟨S200000, .i32⟩
  | .hbm, ⟨61, _⟩ => ⟨S200000, .i1⟩
  | .hbm, ⟨62, _⟩ => ⟨S_, .i32⟩
  | .hbm, ⟨63, _⟩ => ⟨S200000, .i32⟩
  | .hbm, ⟨64, _⟩ => ⟨S200000, .i32⟩
  | .hbm, ⟨65, _⟩ => ⟨S200000, .i32⟩
  | .hbm, ⟨66, _⟩ => ⟨S200000x1, .i32⟩
  | .hbm, ⟨67, _⟩ => ⟨S200000x1, .i32⟩
  | .hbm, ⟨68, _⟩ => ⟨S200000x2, .i32⟩
  | .hbm, ⟨69, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S200000 : S_.BroadcastsInDim S200000 (![] : Fin 0 → Fin S200000.rank)
  bcast_S625000_S625000x1_0 : S625000.BroadcastsInDim S625000x1 (![0] : Fin 1 → Fin S625000x1.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S5x128x200000_S5x200000x128_0_2_1 : S5x128x200000.Transposes [0, 2, 1] S5x200000x128
  bcast_S5x128_S5x1x128_0_2 : S5x128.BroadcastsInDim S5x1x128 (![0, 2] : Fin 2 → Fin S5x1x128.rank)
  bcast_S5x1x128_S5x200000x128_0_1_2 : S5x1x128.BroadcastsInDim S5x200000x128 (![0, 1, 2] : Fin 3 → Fin S5x200000x128.rank)
  concatenates_S200000x1_S200000x1_S200000x2_d1 : Shape.Concatenates [S200000x1, S200000x1] S200000x2 1
  scatter_S200000_S625000x1_S625000_n_0_0_1_wf : ScatterDims.WF S200000 S625000x1 S625000 [] [0] [0] 1
  gather_S200000x128_S625000x1_S625000x128_1_0_n_n_0_1_1128_wf : GatherDims.WF S200000x128 S625000x1 S625000x128 [1] [0] [] [0] [] 1 ![1, 128]
  scatter_S200000x128_S625000x1_S625000x128_1_0_0_1_wf : ScatterDims.WF S200000x128 S625000x1 S625000x128 [1] [0] [0] 1
  dot_S5x128x128_S200000x128_S5x128x200000_2_1_01_0_n_n_wf : DotDims.WF S5x128x128 S200000x128 S5x128x200000 [2] [1] [0, 1] [0] [] []
  gather_S5x200000x128_S200000x2_S200000x128_1_01_n_n_01_1_11128_wf : GatherDims.WF S5x200000x128 S200000x2 S200000x128 [1] [0, 1] [] [0, 1] [] 1 ![1, 1, 128]

variable [Facts₀]

def scatter_S200000_S625000x1_S625000_n_0_0_1 : ScatterDims S200000 S625000x1 S625000 where
  updateWindowDims := []
  insertedWindowDims := [0]
  scatterDimsToOperandDims := [0]
  indexVectorDim := 1
  wf := scatter_S200000_S625000x1_S625000_n_0_0_1_wf
def gather_S200000x128_S625000x1_S625000x128_1_0_n_n_0_1_1128 : GatherDims S200000x128 S625000x1 S625000x128 where
  offsetDims := [1]
  collapsedSliceDims := [0]
  operandBatchingDims := []
  startIndicesBatchingDims := []
  startIndexMap := [0]
  indexVectorDim := 1
  sliceSizes := ![1, 128]
  wf := gather_S200000x128_S625000x1_S625000x128_1_0_n_n_0_1_1128_wf
def scatter_S200000x128_S625000x1_S625000x128_1_0_0_1 : ScatterDims S200000x128 S625000x1 S625000x128 where
  updateWindowDims := [1]
  insertedWindowDims := [0]
  scatterDimsToOperandDims := [0]
  indexVectorDim := 1
  wf := scatter_S200000x128_S625000x1_S625000x128_1_0_0_1_wf
def dot_S5x128x128_S200000x128_S5x128x200000_2_1_01_0_n_n : DotDims S5x128x128 S200000x128 S5x128x200000 where
  lhsContracting := [2]
  rhsContracting := [1]
  lhsNonContracting := [0, 1]
  rhsNonContracting := [0]
  lhsBatch := []
  rhsBatch := []
  wf := dot_S5x128x128_S200000x128_S5x128x200000_2_1_01_0_n_n_wf
def gather_S5x200000x128_S200000x2_S200000x128_1_01_n_n_01_1_11128 : GatherDims S5x200000x128 S200000x2 S200000x128 where
  offsetDims := [1]
  collapsedSliceDims := [0, 1]
  operandBatchingDims := []
  startIndicesBatchingDims := []
  startIndexMap := [0, 1]
  indexVectorDim := 1
  sliceSizes := ![1, 1, 128]
  wf := gather_S5x200000x128_S200000x2_S200000x128_1_01_n_n_01_1_11128_wf

class Facts : Prop extends Facts₀ where

variable [Facts]
-- ==== Proof.Spec.lean ====
/-
  The mathematics of the degree-bucketed layer, free of any program.

  A node carries two rows of 128 reals: the mean of its in-neighbours' features and its own features. Each of the
  five degree buckets `b` has an affine layer: output coordinate `o` is the neighbour row against row `o` of the
  bucket's neighbour weights, plus the neighbour bias, plus the node's own row against row `o` of the bucket's root
  weights, plus the root bias (`layer`). One way to select a node's bucket is to compute all five layers and add them
  up, each multiplied by an indicator of the bucket (`pick`); the other is to look the bucket's layer up. Over the
  extended reals the two agree for EVERY value of the layers, infinite ones included: `0 · y = 0` and `1 · y = y`
  hold for every extended real `y`, and adding zeros changes nothing (`pick_indicator`).
-/
import Idealize.ShloMosaic.PureOps.Ideal
import Idealize.ShloMosaic.Lib.ValueIdx

noncomputable section

open scoped BigOperators

namespace Cert.Spec

/-- Bucket layer, output coordinate `o`: `((Σ_d nrow d · nw o d + nb o) + Σ_d xrow d · rw o d) + rb o`, in the order both
    programs add the four terms. -/
def layer (nrow xrow : Fin 128 → EReal) (nw : Fin 128 → Fin 128 → EReal) (nb : Fin 128 → EReal)
    (rw : Fin 128 → Fin 128 → EReal) (rb : Fin 128 → EReal) (o : Fin 128) : EReal :=
  ((∑ d : Fin 128, nrow d * nw o d) + nb o + ∑ d : Fin 128, xrow d * rw o d) + rb o

/-- The masked sum over the five buckets, accumulated from zero in bucket order. -/
def pick (μ y : Fin 5 → EReal) : EReal :=
  ((((0 + μ 0 * y 0) + μ 1 * y 1) + μ 2 * y 2) + μ 3 * y 3) + μ 4 * y 4

/-- With an indicator for mask, the masked sum is the indicated term, whatever the five values are. -/
theorem pick_indicator (b0 : Fin 5) (μ y : Fin 5 → EReal) (hμ : ∀ b, μ b = if b = b0 then 1 else 0) :
    pick μ y = y b0 := by
  unfold pick
  rw [hμ 0, hμ 1, hμ 2, hμ 3, hμ 4]
  match b0 with
  | ⟨0, _⟩ => simp
  | ⟨1, _⟩ => simp
  | ⟨2, _⟩ => simp
  | ⟨3, _⟩ => simp
  | ⟨4, _⟩ => simp

/-- A node's output coordinate `o` the masked way: all five bucket layers of the node's two rows, masked by `mrow`. -/
def node (mrow : Fin 5 → EReal) (nrow xrow : Fin 128 → EReal) (nw : Fin 5 → Fin 128 → Fin 128 → EReal)
    (nb : Fin 5 → Fin 128 → EReal) (rw : Fin 5 → Fin 128 → Fin 128 → EReal) (rb : Fin 5 → Fin 128 → EReal)
    (o : Fin 128) : EReal :=
  pick mrow (fun b => layer nrow xrow (nw b) (nb b) (rw b) (rb b) o)

/-- A node whose mask row indicates bucket `b0` gets bucket `b0`'s layer. -/
theorem node_indicator (b0 : Fin 5) (mrow : Fin 5 → EReal) (hμ : ∀ b, mrow b = if b = b0 then 1 else 0)
    (nrow xrow : Fin 128 → EReal) (nw : Fin 5 → Fin 128 → Fin 128 → EReal) (nb : Fin 5 → Fin 128 → EReal)
    (rw : Fin 5 → Fin 128 → Fin 128 → EReal) (rb : Fin 5 → Fin 128 → EReal) (o : Fin 128) :
    node mrow nrow xrow nw nb rw rb o = layer nrow xrow (nw b0) (nb b0) (rw b0) (rb b0) o :=
  pick_indicator b0 mrow _ hμ

end Cert.Spec

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.Payload.lean ====
/-
  The kernel body's result on one block of 4000 nodes, read at a node `p` of the block and an output coordinate `q`.

  The body forms, for each of the five buckets, the bucket's layer of every node of the block (two products with the
  bucket's two weight matrices, contracted over the 128 input features, and the two biases broadcast over the nodes),
  multiplies it by that bucket's column of the block's mask, and adds the five products up from zero. A change of float
  format is the identity on extended reals, so at `(p, q)` this is `Spec.node` of the node's mask row and its two
  feature rows.
-/
import proofs.«162380_j936302871077_1_alg».proof.Proof.Gen.KernelIdeal.Frame
import proofs.«162380_j936302871077_1_alg».proof.Proof.Spec
import proofs.«162380_j936302871077_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The product of a block of rows with a weight matrix, contracted over the second axis of both -/

/-- The product's result at `(r, c)` and contraction position `k` reads the left operand at `(r, k)` and the right
    operand at `(c, k)`: both are contracted over their second axis. The four coordinates, one by one. -/
private theorem lhs_0 (i : S4000x128.Idx) (k : dot_S4000x128_S128x128_S4000x128_1_1_0_0_n_n.contr.Idx) : (dot_S4000x128_S128x128_S4000x128_1_1_0_0_n_n.lhsIdx i k 0).val = (i 0).val := by
  unfold DotDims.lhsIdx
  rw [dif_neg (show ¬(0 : Fin S4000x128.rank) ∈ dot_S4000x128_S128x128_S4000x128_1_1_0_0_n_n.lhsBatch by decide), dif_pos (show (0 : Fin S4000x128.rank) ∈ dot_S4000x128_S128x128_S4000x128_1_1_0_0_n_n.lhsNonContracting by decide)]
  rfl
private theorem lhs_1 (i : S4000x128.Idx) (k : dot_S4000x128_S128x128_S4000x128_1_1_0_0_n_n.contr.Idx) : (dot_S4000x128_S128x128_S4000x128_1_1_0_0_n_n.lhsIdx i k 1).val = (k ⟨0, by decide⟩).val :=
  dot_S4000x128_S128x128_S4000x128_1_1_0_0_n_n.lhsIdx_val_of_single rfl i k
private theorem rhs_0 (i : S4000x128.Idx) (k : dot_S4000x128_S128x128_S4000x128_1_1_0_0_n_n.contr.Idx) : (dot_S4000x128_S128x128_S4000x128_1_1_0_0_n_n.rhsIdx i k 0).val = (i 1).val := by
  unfold DotDims.rhsIdx
  rw [dif_neg (show ¬(0 : Fin S128x128.rank) ∈ dot_S4000x128_S128x128_S4000x128_1_1_0_0_n_n.rhsBatch by decide), dif_pos (show (0 : Fin S128x128.rank) ∈ dot_S4000x128_S128x128_S4000x128_1_1_0_0_n_n.rhsNonContracting by decide)]
  rfl
private theorem rhs_1 (i : S4000x128.Idx) (k : dot_S4000x128_S128x128_S4000x128_1_1_0_0_n_n.contr.Idx) : (dot_S4000x128_S128x128_S4000x128_1_1_0_0_n_n.rhsIdx i k 1).val = (k ⟨0, by decide⟩).val :=
  dot_S4000x128_S128x128_S4000x128_1_1_0_0_n_n.rhsIdx_val_of_single rfl i k

/-- Accumulated into zero, the product at `(p, q)` is the sum over the 128 features `d` of row `p` of the block at `d`
    times row `q` of the weight matrix at `d`. -/
private theorem matmul_zero_apply (a : FVec Ideal S4000x128 .bf16) (w : FVec Ideal S128x128 .bf16) (p : Fin 4000) (q : Fin 128) :
    matmul dot_S4000x128_S128x128_S4000x128_1_1_0_0_n_n none a w (constant (F := Ideal) S4000x128 .f32 0x00000000#32) (ix2 p q)
      = ∑ d : Fin 128, a (ix2 p d) * w (ix2 q d) := by
  show FloatOps.matmul dot_S4000x128_S128x128_S4000x128_1_1_0_0_n_n none a w (constant (F := Ideal) S4000x128 .f32 0x00000000#32) (ix2 p q) = _
  rw [Ideal.matmul_constant_zero_apply, ← Equiv.sum_comp (contrEquiv1 dot_S4000x128_S128x128_S4000x128_1_1_0_0_n_n 128 rfl rfl).symm]
  refine Finset.sum_congr rfl fun d _ => ?_
  have hk := contrEquiv1_symm_val dot_S4000x128_S128x128_S4000x128_1_1_0_0_n_n 128 rfl rfl d
  have el : dot_S4000x128_S128x128_S4000x128_1_1_0_0_n_n.lhsIdx (ix2 p q) ((contrEquiv1 dot_S4000x128_S128x128_S4000x128_1_1_0_0_n_n 128 rfl rfl).symm d) = ix2 p d := funext fun a => Fin.ext (by
    match a with
    | ⟨0, _⟩ => exact lhs_0 _ _
    | ⟨1, _⟩ => exact (lhs_1 _ _).trans hk)
  have er : dot_S4000x128_S128x128_S4000x128_1_1_0_0_n_n.rhsIdx (ix2 p q) ((contrEquiv1 dot_S4000x128_S128x128_S4000x128_1_1_0_0_n_n 128 rfl rfl).symm d) = ix2 q d := funext fun a => Fin.ext (by
    match a with
    | ⟨0, _⟩ => exact rhs_0 _ _
    | ⟨1, _⟩ => exact (rhs_1 _ _).trans hk)
  rw [el, er]

/-! ## The layout operations of the body, read at an index -/

/-- A `[1,128,128]` slab viewed as a `[128,128]` matrix reads `(0, q, d)` at `(q, d)`. -/
private theorem slab_apply {α : Type} (w : S1x128x128.Idx → α) (q d : Fin 128) :
    shapeCast S128x128 w Facts₀.shapeCasts_S1x128x128_S128x128 (ix2 q d) = w (ix3 (0 : Fin 1) q d) :=
  shapeCast_apply w Facts₀.shapeCasts_S1x128x128_S128x128 _ _ (by
    rw [Shape.rowMajor_val_two, Shape.rowMajor_val_three]
    show ((0 : ℕ) * 128 + q.val) * 128 + d.val = q.val * 128 + d.val
    omega)

/-- A `[1,128]` row viewed as a `[128]` vector reads `(0, q)` at `q`. -/
private theorem row_apply {α : Type} (v : S1x128.Idx → α) (q : Fin 128) :
    shapeCast S128 v Facts₀.shapeCasts_S1x128_S128 (ix1 q) = v (ix2 (0 : Fin 1) q) :=
  shapeCast_apply v Facts₀.shapeCasts_S1x128_S128 _ _ (by
    rw [Shape.rowMajor_val_one, Shape.rowMajor_val_two]
    show (0 : ℕ) * 128 + q.val = q.val
    omega)

/-- A `[128]` vector viewed as a row and broadcast over the 4000 nodes reads its entry `q` at every `(p, q)`. -/
private theorem bias_apply {α : Type} (v : S128.Idx → α) (p : Fin 4000) (q : Fin 128) :
    broadcastTo S4000x128 (shapeCast S1x128 v Facts₀.shapeCasts_S128_S1x128) Facts₀.broadcasts_S1x128_S4000x128 (ix2 p q) = v (ix1 q) := by
  refine (broadcastTo_apply _ Facts₀.broadcasts_S1x128_S4000x128 (ix2 p q) (ix2 (0 : Fin 1) q) fun a => ?_).trans ?_
  · match a with
    | ⟨0, _⟩ => rfl
    | ⟨1, _⟩ => rfl
  · exact shapeCast_apply v Facts₀.shapeCasts_S128_S1x128 _ _ (by
      rw [Shape.rowMajor_val_one, Shape.rowMajor_val_two]
      show q.val = (0 : ℕ) * 128 + q.val
      omega)

/-- Column `b` of the `[4000,5]` mask block, broadcast over the 128 output coordinates, reads the mask's entry
    `(p, b)` at every `(p, q)`. -/
private theorem maskcol_apply {α : Type} (b : ℕ) (hb : b < 5) (μ : S4000x5.Idx → α) (h : S4000x5.Slices ![0, b] S4000x1)
    (p : Fin 4000) (q : Fin 128) :
    broadcastTo S4000x128 (extractStridedSlice S4000x1 ![0, b] μ h) Facts₀.broadcasts_S4000x1_S4000x128 (ix2 p q)
      = μ (ix2 p (⟨b, hb⟩ : Fin 5)) := by
  refine (Cert.Columns.broadcastTo_a1_ab_apply _ Facts₀.broadcasts_S4000x1_S4000x128 p q).trans ?_
  refine extractStridedSlice_apply _ μ h _ _ fun a => ?_
  match a with
  | ⟨0, _⟩ => show p.val = 0 + p.val; omega
  | ⟨1, _⟩ => show b = b + 0; omega

/-! ## One bucket's layer on the block -/

/-- The two products, each followed by its bias, added in the body's order: at `(p, q)` the bucket's layer of the two
    rows `p`, coordinate `q`. -/
private theorem layer_core_apply (a0 a1 : FVec Ideal S4000x128 .bf16) (W1 W2 : FVec Ideal S128x128 .bf16) (c1 c2 : FVec Ideal S128 .f32)
    (p : Fin 4000) (q : Fin 128) :
    addf (addf (addf (matmul dot_S4000x128_S128x128_S4000x128_1_1_0_0_n_n none a0 W1 (constant (F := Ideal) S4000x128 .f32 0x00000000#32))
          (broadcastTo S4000x128 (shapeCast S1x128 c1 Facts₀.shapeCasts_S128_S1x128) Facts₀.broadcasts_S1x128_S4000x128))
        (matmul dot_S4000x128_S128x128_S4000x128_1_1_0_0_n_n none a1 W2 (constant (F := Ideal) S4000x128 .f32 0x00000000#32)))
      (broadcastTo S4000x128 (shapeCast S1x128 c2 Facts₀.shapeCasts_S128_S1x128) Facts₀.broadcasts_S1x128_S4000x128) (ix2 p q)
    = Cert.Spec.layer (fun d => a0 (ix2 p d)) (fun d => a1 (ix2 p d)) (fun o d => W1 (ix2 o d)) (fun o => c1 (ix1 o))
        (fun o d => W2 (ix2 o d)) (fun o => c2 (ix1 o)) q := by
  rw [addf_apply, addf_apply, addf_apply, matmul_zero_apply, matmul_zero_apply, bias_apply, bias_apply]
  rfl

/-! ## The payloads, read at an index -/

/-- A change of float format is the identity on extended reals: the first feature block as the products read it. -/
private theorem pay2_apply (v0 : Vec Ideal S4000x128 .f32) (i : S4000x128.Idx) : k0_pay2 (F := Ideal) v0 i = v0 i := by
  unfold k0_pay2
  exact congrFun (shapeCast_self v0 Facts₀.shapeCasts_S4000x128_S4000x128) i

/-- The second feature block likewise. -/
private theorem pay3_apply (v3 : Vec Ideal S4000x128 .f32) (i : S4000x128.Idx) : k0_pay3 (F := Ideal) v3 i = v3 i := rfl

/-- The mask block is read as it is. -/
private theorem pay4_apply (v5 : Vec Ideal S4000x5 .f32) (i : S4000x5.Idx) : k0_pay4 (F := Ideal) v5 i = v5 i := by
  unfold k0_pay4
  exact congrFun (shapeCast_self v5 Facts₀.shapeCasts_S4000x5_S4000x5) i

/-- A weight slab as the products read it: entry `(0, q, d)` at `(q, d)`. -/
private theorem pay6_apply (v31 : Vec Ideal S1x128x128 .f32) (q d : Fin 128) :
    k0_pay6 (F := Ideal) v31 (ix2 q d) = v31 (ix3 (0 : Fin 1) q d) := by
  unfold k0_pay6
  exact slab_apply v31 q d

/-- The last bucket's second weight slab likewise. -/
private theorem pay10_apply (v105 : Vec Ideal S1x128x128 .f32) (q d : Fin 128) :
    k0_pay10 (F := Ideal) v105 (ix2 q d) = v105 (ix3 (0 : Fin 1) q d) := by
  unfold k0_pay10
  exact slab_apply v105 q d

/-- A bias row as a vector: entry `(0, q)` at `q`. -/
private theorem pay11_apply (v108 : Vec Ideal S1x128 .f32) (q : Fin 128) :
    k0_pay11 (F := Ideal) v108 (ix1 q) = v108 (ix2 (0 : Fin 1) q) := by
  unfold k0_pay11
  exact row_apply v108 q

/-- The last bucket's first product. -/
private theorem pay12_apply (v2 : FVec Ideal S4000x128 .bf16) (v100 : Vec Ideal S1x128x128 .f32) (p : Fin 4000) (q : Fin 128) :
    k0_pay12 (F := Ideal) v2 v100 (ix2 p q) = ∑ d : Fin 128, v2 (ix2 p d) * v100 (ix3 (0 : Fin 1) q d) := by
  unfold k0_pay12
  rw [matmul_zero_apply]
  refine Finset.sum_congr rfl fun d _ => ?_
  rw [truncf_apply, slab_apply]

/-- The last bucket's first bias, over the block. -/
private theorem pay13_apply (v103 : Vec Ideal S1x128 .f32) (p : Fin 4000) (q : Fin 128) :
    k0_pay13 (F := Ideal) v103 (ix2 p q) = v103 (ix2 (0 : Fin 1) q) := by
  unfold k0_pay13
  rw [bias_apply, row_apply]

/-- Bucket 0: zero plus the mask's column 0 times the bucket's layer. -/
private theorem pay5_apply (v0 v3 : Vec Ideal S4000x128 .f32) (v5 : Vec Ideal S4000x5 .f32) (v8 : Vec Ideal S1x128x128 .f32)
    (v11 : Vec Ideal S1x128 .f32) (v13 : Vec Ideal S1x128x128 .f32) (v16 : Vec Ideal S1x128 .f32) (p : Fin 4000) (q : Fin 128) :
    k0_pay5 (F := Ideal) v0 v3 v5 v8 v11 v13 v16 (ix2 p q)
      = 0 + v5 (ix2 p (0 : Fin 5)) * Cert.Spec.layer (fun d => v0 (ix2 p d)) (fun d => v3 (ix2 p d))
          (fun o d => v8 (ix3 (0 : Fin 1) o d)) (fun o => v11 (ix2 (0 : Fin 1) o))
          (fun o d => v13 (ix3 (0 : Fin 1) o d)) (fun o => v16 (ix2 (0 : Fin 1) o)) q := by
  unfold k0_pay5
  rw [addf_apply, mulf_apply, maskcol_apply 0 (by decide), layer_core_apply]
  simp only [pay2_apply, pay3_apply, pay4_apply, truncf_apply, slab_apply, row_apply]
  exact congrArg (· + _) Ideal.ofBits_zero_f32

/-- Bucket 1: what bucket 0 left, plus the mask's column 1 times the bucket's layer. -/
private theorem pay7_apply (v2 v4 : FVec Ideal S4000x128 .bf16) (v6 : FVec Ideal S4000x5 .f32) (v30 : FVec Ideal S4000x128 .f32)
    (v33 : FVec Ideal S128x128 .bf16) (v34 : Vec Ideal S1x128 .f32) (v36 : Vec Ideal S1x128x128 .f32) (v39 : Vec Ideal S1x128 .f32)
    (p : Fin 4000) (q : Fin 128) :
    k0_pay7 (F := Ideal) v2 v4 v6 v30 v33 v34 v36 v39 (ix2 p q)
      = v30 (ix2 p q) + v6 (ix2 p (1 : Fin 5)) * Cert.Spec.layer (fun d => v2 (ix2 p d)) (fun d => v4 (ix2 p d))
          (fun o d => v33 (ix2 o d)) (fun o => v34 (ix2 (0 : Fin 1) o))
          (fun o d => v36 (ix3 (0 : Fin 1) o d)) (fun o => v39 (ix2 (0 : Fin 1) o)) q := by
  unfold k0_pay7
  rw [addf_apply, mulf_apply, maskcol_apply 1 (by decide), layer_core_apply]
  simp only [truncf_apply, slab_apply, row_apply]
  rfl

/-- Bucket 2: the mask's column 2 times the bucket's layer. -/
private theorem pay8_apply (v2 v4 : FVec Ideal S4000x128 .bf16) (v6 : FVec Ideal S4000x5 .f32) (v54 : Vec Ideal S1x128x128 .f32)
    (v57 : Vec Ideal S1x128 .f32) (v59 : Vec Ideal S1x128x128 .f32) (v62 : Vec Ideal S1x128 .f32) (p : Fin 4000) (q : Fin 128) :
    k0_pay8 (F := Ideal) v2 v4 v6 v54 v57 v59 v62 (ix2 p q)
      = v6 (ix2 p (2 : Fin 5)) * Cert.Spec.layer (fun d => v2 (ix2 p d)) (fun d => v4 (ix2 p d))
          (fun o d => v54 (ix3 (0 : Fin 1) o d)) (fun o => v57 (ix2 (0 : Fin 1) o))
          (fun o d => v59 (ix3 (0 : Fin 1) o d)) (fun o => v62 (ix2 (0 : Fin 1) o)) q := by
  unfold k0_pay8
  rw [mulf_apply, maskcol_apply 2 (by decide), layer_core_apply]
  simp only [truncf_apply, slab_apply, row_apply]
  rfl

/-- Bucket 3: what buckets 0 to 2 left, plus the mask's column 3 times the bucket's layer. -/
private theorem pay9_apply (v2 v4 : FVec Ideal S4000x128 .bf16) (v6 : FVec Ideal S4000x5 .f32) (v53 v75 : FVec Ideal S4000x128 .f32)
    (v77 : Vec Ideal S1x128x128 .f32) (v80 : Vec Ideal S1x128 .f32) (v82 : Vec Ideal S1x128x128 .f32) (v85 : Vec Ideal S1x128 .f32)
    (p : Fin 4000) (q : Fin 128) :
    k0_pay9 (F := Ideal) v2 v4 v6 v53 v75 v77 v80 v82 v85 (ix2 p q)
      = (v53 (ix2 p q) + v75 (ix2 p q)) + v6 (ix2 p (3 : Fin 5)) * Cert.Spec.layer (fun d => v2 (ix2 p d)) (fun d => v4 (ix2 p d))
          (fun o d => v77 (ix3 (0 : Fin 1) o d)) (fun o => v80 (ix2 (0 : Fin 1) o))
          (fun o d => v82 (ix3 (0 : Fin 1) o d)) (fun o => v85 (ix2 (0 : Fin 1) o)) q := by
  unfold k0_pay9
  rw [addf_apply, addf_apply, mulf_apply, maskcol_apply 3 (by decide), layer_core_apply]
  simp only [truncf_apply, slab_apply, row_apply]
  rfl

/-- Bucket 4, the stored value: what buckets 0 to 3 left, plus the mask's column 4 times the bucket's layer, whose first
    product and first bias come ready-made. -/
private theorem pay1_apply (v4 : FVec Ideal S4000x128 .bf16) (v6 : FVec Ideal S4000x5 .f32) (v99 : FVec Ideal S4000x128 .f32)
    (v107 : FVec Ideal S128x128 .bf16) (v109 : FVec Ideal S128 .f32) (v110 v112 : FVec Ideal S4000x128 .f32)
    (p : Fin 4000) (q : Fin 128) :
    k0_pay1 (F := Ideal) v4 v6 v99 v107 v109 v110 v112 (ix2 p q)
      = v99 (ix2 p q) + v6 (ix2 p (4 : Fin 5))
          * (((v110 (ix2 p q) + v112 (ix2 p q)) + ∑ d : Fin 128, v4 (ix2 p d) * v107 (ix2 q d)) + v109 (ix1 q)) := by
  unfold k0_pay1
  rw [addf_apply, mulf_apply, maskcol_apply 4 (by decide), addf_apply, addf_apply, addf_apply, matmul_zero_apply, bias_apply]
  rfl

/-! ## The loads -/

/-- The zero offsets of a whole-block rectangle, as the constant function. -/
private theorem hz2 : (![0, 0] : Fin 2 → ℕ) = fun _ => 0 := by funext a; fin_cases a <;> rfl

/-- A load of a whole feature block reads the block. -/
private theorem ld_block (x : Vec Ideal S4000x128 .f32) : View.ld x r0_0 = x := View.ld_unit_zero hz2 _ x
/-- A load of the whole mask block reads the block. -/
private theorem ld_mask (x : Vec Ideal S4000x5 .f32) : View.ld x r0_1 = x := View.ld_unit_zero hz2 _ x

/-- Slab `b` of a `[5,128,128]` weight array, as a `[1,128,128]` block. -/
private def slabOf (x : Vec Ideal S5x128x128 .f32) (b : Fin 5) : Vec Ideal S1x128x128 .f32 := fun i => x (ix3 b (i 1) (i 2))
/-- Row `b` of a `[5,128]` bias array, as a `[1,128]` block. -/
private def rowOf (x : Vec Ideal S5x128 .f32) (b : Fin 5) : Vec Ideal S1x128 .f32 := fun i => x (ix2 b (i 1))

private theorem slabOf_apply (x : Vec Ideal S5x128x128 .f32) (b : Fin 5) (o d : Fin 128) :
    slabOf x b (ix3 (0 : Fin 1) o d) = x (ix3 b o d) := rfl
private theorem rowOf_apply (x : Vec Ideal S5x128 .f32) (b : Fin 5) (o : Fin 128) :
    rowOf x b (ix2 (0 : Fin 1) o) = x (ix2 b o) := rfl

/-- A load through the `[1,128,128]` rectangle at offsets `(b, 0, 0)` reads slab `b`: each coordinate is the
    rectangle's offset plus the unit stride times the inner coordinate. -/
private theorem ld_slab (x : Vec Ideal S5x128x128 .f32) (b : ℕ) (hb : b < 5)
    (inb : ∀ a, (![b, 0, 0] : Fin 3 → ℕ) a + S1x128x128.size a ≤ S5x128x128.size a) :
    (View.ld x (Rect.unit (s := S5x128x128) ![b, 0, 0] S1x128x128.size inb) : S1x128x128.Idx → EReal) = slabOf x ⟨b, hb⟩ := by
  funext i
  have h0 : (i 0).val < 1 := (i 0).isLt
  refine congrArg x (funext fun a => Fin.ext ?_)
  match a with
  | ⟨0, _⟩ => show b + 1 * (i 0).val = b; omega
  | ⟨1, _⟩ => show 0 + 1 * (i 1).val = (i 1).val; omega
  | ⟨2, _⟩ => show 0 + 1 * (i 2).val = (i 2).val; omega

/-- A load through the `[1,128]` rectangle at offsets `(b, 0)` reads row `b`. -/
private theorem ld_row (x : Vec Ideal S5x128 .f32) (b : ℕ) (hb : b < 5)
    (inb : ∀ a, (![b, 0] : Fin 2 → ℕ) a + S1x128.size a ≤ S5x128.size a) :
    (View.ld x (Rect.unit (s := S5x128) ![b, 0] S1x128.size inb) : S1x128.Idx → EReal) = rowOf x ⟨b, hb⟩ := by
  funext i
  have h0 : (i 0).val < 1 := (i 0).isLt
  refine congrArg x (funext fun a => Fin.ext ?_)
  match a with
  | ⟨0, _⟩ => show b + 1 * (i 0).val = b; omega
  | ⟨1, _⟩ => show 0 + 1 * (i 1).val = (i 1).val; omega

/-! ## The block's result -/

/-- The block's result at node `p`, coordinate `q`: the masked sum of the five bucket layers of the node's rows. -/
theorem out0_7_apply (x0 x1 : Vec Ideal S4000x128 .f32) (x2 : Vec Ideal S4000x5 .f32) (x3 : Vec Ideal S5x128x128 .f32)
    (x4 : Vec Ideal S5x128 .f32) (x5 : Vec Ideal S5x128x128 .f32) (x6 : Vec Ideal S5x128 .f32) (p : Fin 4000) (q : Fin 128) :
    out0_7 (F := Ideal) x0 x1 x2 x3 x4 x5 x6 (ix2 p q)
      = Cert.Spec.node (fun b => x2 (ix2 p b)) (fun d => x0 (ix2 p d)) (fun d => x1 (ix2 p d))
          (fun b o d => x3 (ix3 b o d)) (fun b o => x4 (ix2 b o)) (fun b o d => x5 (ix3 b o d)) (fun b o => x6 (ix2 b o)) q := by
  unfold out0_7
  rw [View.canon_unit_zero hz2, ld_block x0, ld_block x1, ld_mask x2,
    ld_slab x3 0 (by decide), ld_row x4 0 (by decide), ld_slab x5 0 (by decide), ld_row x6 0 (by decide),
    ld_slab x3 1 (by decide), ld_row x4 1 (by decide), ld_slab x5 1 (by decide), ld_row x6 1 (by decide),
    ld_slab x3 2 (by decide), ld_row x4 2 (by decide), ld_slab x5 2 (by decide), ld_row x6 2 (by decide),
    ld_slab x3 3 (by decide), ld_row x4 3 (by decide), ld_slab x5 3 (by decide), ld_row x6 3 (by decide),
    ld_slab x3 4 (by decide), ld_row x4 4 (by decide), ld_slab x5 4 (by decide), ld_row x6 4 (by decide)]
  rw [pay1_apply, pay9_apply, pay7_apply, pay5_apply, pay8_apply, pay12_apply, pay13_apply]
  simp only [pay2_apply, pay3_apply, pay4_apply, pay6_apply, pay10_apply, pay11_apply, slabOf_apply, rowOf_apply]
  rfl

end Cert.KernelIdeal.Payload

end
-- ==== Proof.Blocks.lean ====
/-
  From blocks to the array: what the kernel leaves in its result array, as one function of the arrays it reads.

  The grid has 50 points; point `t` works on nodes `4000 t … 4000 t + 3999`: it reads those rows of the mean-neighbour
  array, of the feature array and of the mask, reads the four parameter arrays whole, and writes those rows of the result.
  The body's result on a block is the masked sum of the five bucket layers row by row (`Payload.out0_7_apply`), a
  function of the node's own rows only, so the result array is that same function `G` of the whole arrays: row `n` of the
  result is `Spec.node` of row `n` of the mask and of rows `n` of the two feature arrays. The 50 blocks of 4000 rows
  cover all 200000 rows (row `r` is in block `r / 4000`).
-/
import proofs.«162380_j936302871077_1_alg».proof.Proof.Gen.KernelIdeal.Value
import proofs.«162380_j936302871077_1_alg».proof.Proof.Payload
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx

variable (m : (ℓ : Loc nD τ sig) → Buf (Elt Ideal) ℓ) (ρ : Dev nD → PrngReg)

/-- The result array as a function of the arrays the region reads: row `i 0`, coordinate `i 1`. -/
def G (neigh x : S200000x128.Idx → EReal) (mask : S200000x5.Idx → EReal) (nw : S5x128x128.Idx → EReal)
    (nb : S5x128.Idx → EReal) (rw : S5x128x128.Idx → EReal) (rb : S5x128.Idx → EReal) : S200000x128.Idx → EReal :=
  fun i => Cert.Spec.node (fun b => mask (ix2 (i 0) b)) (fun d => neigh (ix2 (i 0) d)) (fun d => x (ix2 (i 0) d))
    (fun b o d => nw (ix3 b o d)) (fun b o => nb (ix2 b o)) (fun b o d => rw (ix3 b o d)) (fun b o => rb (ix2 b o)) (i 1)

/-- The block index maps over the 50 grid points: the three row-blocked inputs and the output are at row block `t`,
    column block 0; the four parameter arrays at block 0 on every axis. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

theorem t_lt (t : Fin cfg0.N) : t.val < 50 := by
  have h : cfg0.N = 50 := by decide +kernel
  have := t.isLt; omega

/-- Point `t`'s block of a [200000, 128] array, through the mean-neighbour window: row `y 0` of the block is row
    `4000 t + y 0` of the array. (Stated for an arbitrary array: reading a block does not look at what the array holds.) -/
theorem blk0_read (c : Dev nD) (t : Fin cfg0.N) (X : S200000x128.Idx → EReal) (y : S4000x128.Idx) (k : S200000x128.Idx)
    (hk0 : (k 0).val = 4000 * t.val + (y 0).val) (hk1 : (k 1).val = (y 1).val) :
    ((cfg0.win 0).blk t).view.read (Elt Ideal) X y = X k := by
  obtain ⟨⟨h0, h1⟩, -⟩ := idx_facts t
  rw [View.read_apply]
  show X _ = X _
  refine congrArg X (funext fun a => Fin.ext ?_)
  match a with
  | ⟨0, _⟩ => show win0_0.index t 0 * 4000 + 1 * (y 0).val = (k 0).val; rw [h0, hk0]; omega
  | ⟨1, _⟩ => show win0_0.index t 1 * 128 + 1 * (y 1).val = (k 1).val; rw [h1, hk1]; omega

/-- Row `y 0` of point `t`'s block of the mean-neighbour array is row `4000 t + y 0` of the array. -/
theorem iblk0_apply (c : Dev nD) (t : Fin cfg0.N) (y : S4000x128.Idx) (k : S200000x128.Idx)
    (hk0 : (k 0).val = 4000 * t.val + (y 0).val) (hk1 : (k 1).val = (y 1).val) :
    (iblk m c 0 t : Vec Ideal S4000x128 .f32) y = (V m c main_v21 : S200000x128.Idx → EReal) k :=
  blk0_read c t (V m c main_v21 : S200000x128.Idx → EReal) y k hk0 hk1

/-- The same through the feature window. -/
theorem blk1_read (c : Dev nD) (t : Fin cfg0.N) (X : S200000x128.Idx → EReal) (y : S4000x128.Idx) (k : S200000x128.Idx)
    (hk0 : (k 0).val = 4000 * t.val + (y 0).val) (hk1 : (k 1).val = (y 1).val) :
    ((cfg0.win 1).blk t).view.read (Elt Ideal) X y = X k := by
  obtain ⟨-, ⟨h0, h1⟩, -⟩ := idx_facts t
  rw [View.read_apply]
  show X _ = X _
  refine congrArg X (funext fun a => Fin.ext ?_)
  match a with
  | ⟨0, _⟩ => show win0_1.index t 0 * 4000 + 1 * (y 0).val = (k 0).val; rw [h0, hk0]; omega
  | ⟨1, _⟩ => show win0_1.index t 1 * 128 + 1 * (y 1).val = (k 1).val; rw [h1, hk1]; omega

/-- Row `y 0` of point `t`'s block of the feature array is row `4000 t + y 0` of the array. -/
theorem iblk1_apply (c : Dev nD) (t : Fin cfg0.N) (y : S4000x128.Idx) (k : S200000x128.Idx)
    (hk0 : (k 0).val = 4000 * t.val + (y 0).val) (hk1 : (k 1).val = (y 1).val) :
    (iblk m c 1 t : Vec Ideal S4000x128 .f32) y = (V m c main_arg0 : S200000x128.Idx → EReal) k :=
  blk1_read c t (V m c main_arg0 : S200000x128.Idx → EReal) y k hk0 hk1

/-- The same for a [200000, 5] array through the mask window. -/
theorem blk2_read (c : Dev nD) (t : Fin cfg0.N) (X : S200000x5.Idx → EReal) (y : S4000x5.Idx) (k : S200000x5.Idx)
    (hk0 : (k 0).val = 4000 * t.val + (y 0).val) (hk1 : (k 1).val = (y 1).val) :
    ((cfg0.win 2).blk t).view.read (Elt Ideal) X y = X k := by
  obtain ⟨-, -, ⟨h0, h1⟩, -⟩ := idx_facts t
  rw [View.read_apply]
  show X _ = X _
  refine congrArg X (funext fun a => Fin.ext ?_)
  match a with
  | ⟨0, _⟩ => show win0_2.index t 0 * 4000 + 1 * (y 0).val = (k 0).val; rw [h0, hk0]; omega
  | ⟨1, _⟩ => show win0_2.index t 1 * 5 + 1 * (y 1).val = (k 1).val; rw [h1, hk1]; omega

/-- Row `y 0` of point `t`'s block of the mask is row `4000 t + y 0` of the mask. -/
theorem iblk2_apply (c : Dev nD) (t : Fin cfg0.N) (y : S4000x5.Idx) (k : S200000x5.Idx)
    (hk0 : (k 0).val = 4000 * t.val + (y 0).val) (hk1 : (k 1).val = (y 1).val) :
    (iblk m c 2 t : Vec Ideal S4000x5 .f32) y = (V m c main_v25 : S200000x5.Idx → EReal) k :=
  blk2_read c t (V m c main_v25 : S200000x5.Idx → EReal) y k hk0 hk1

/-- Every point's block through the neighbour-weights window is the whole [5, 128, 128] array. -/
theorem blk3_read (c : Dev nD) (t : Fin cfg0.N) (X : S5x128x128.Idx → EReal) :
    ((cfg0.win 3).blk t).view.read (Elt Ideal) X = X := by
  obtain ⟨-, -, -, ⟨h0, h1, h2⟩, -⟩ := idx_facts t
  funext y
  rw [View.read_apply]
  show X _ = X _
  refine congrArg X (funext fun a => Fin.ext ?_)
  match a with
  | ⟨0, _⟩ => show win0_3.index t 0 * 5 + 1 * (y 0).val = (y 0).val; rw [h0]; omega
  | ⟨1, _⟩ => show win0_3.index t 1 * 128 + 1 * (y 1).val = (y 1).val; rw [h1]; omega
  | ⟨2, _⟩ => show win0_3.index t 2 * 128 + 1 * (y 2).val = (y 2).val; rw [h2]; omega

/-- Every point's block of the neighbour weights is the whole array. -/
theorem iblk3_eq (c : Dev nD) (t : Fin cfg0.N) :
    (iblk m c 3 t : Vec Ideal S5x128x128 .f32) = (V m c main_arg1 : S5x128x128.Idx → EReal) :=
  blk3_read c t (V m c main_arg1 : S5x128x128.Idx → EReal)

/-- Every point's block through the neighbour-bias window is the whole [5, 128] array. -/
theorem blk4_read (c : Dev nD) (t : Fin cfg0.N) (X : S5x128.Idx → EReal) :
    ((cfg0.win 4).blk t).view.read (Elt Ideal) X = X := by
  obtain ⟨-, -, -, -, ⟨h0, h1⟩, -⟩ := idx_facts t
  funext y
  rw [View.read_apply]
  show X _ = X _
  refine congrArg X (funext fun a => Fin.ext ?_)
  match a with
  | ⟨0, _⟩ => show win0_4.index t 0 * 5 + 1 * (y 0).val = (y 0).val; rw [h0]; omega
  | ⟨1, _⟩ => show win0_4.index t 1 * 128 + 1 * (y 1).val = (y 1).val; rw [h1]; omega

/-- Every point's block of the neighbour biases is the whole array. -/
theorem iblk4_eq (c : Dev nD) (t : Fin cfg0.N) :
    (iblk m c 4 t : Vec Ideal S5x128 .f32) = (V m c main_arg2 : S5x128.Idx → EReal) :=
  blk4_read c t (V m c main_arg2 : S5x128.Idx → EReal)

/-- Every point's block through the root-weights window is the whole [5, 128, 128] array. -/
theorem blk5_read (c : Dev nD) (t : Fin cfg0.N) (X : S5x128x128.Idx → EReal) :
    ((cfg0.win 5).blk t).view.read (Elt Ideal) X = X := by
  obtain ⟨-, -, -, -, -, ⟨h0, h1, h2⟩, -⟩ := idx_facts t
  funext y
  rw [View.read_apply]
  show X _ = X _
  refine congrArg X (funext fun a => Fin.ext ?_)
  match a with
  | ⟨0, _⟩ => show win0_5.index t 0 * 5 + 1 * (y 0).val = (y 0).val; rw [h0]; omega
  | ⟨1, _⟩ => show win0_5.index t 1 * 128 + 1 * (y 1).val = (y 1).val; rw [h1]; omega
  | ⟨2, _⟩ => show win0_5.index t 2 * 128 + 1 * (y 2).val = (y 2).val; rw [h2]; omega

/-- Every point's block of the root weights is the whole array. -/
theorem iblk5_eq (c : Dev nD) (t : Fin cfg0.N) :
    (iblk m c 5 t : Vec Ideal S5x128x128 .f32) = (V m c main_arg3 : S5x128x128.Idx → EReal) :=
  blk5_read c t (V m c main_arg3 : S5x128x128.Idx → EReal)

/-- Every point's block through the root-bias window is the whole [5, 128] array. -/
theorem blk6_read (c : Dev nD) (t : Fin cfg0.N) (X : S5x128.Idx → EReal) :
    ((cfg0.win 6).blk t).view.read (Elt Ideal) X = X := by
  obtain ⟨-, -, -, -, -, -, ⟨h0, h1⟩, -⟩ := idx_facts t
  funext y
  rw [View.read_apply]
  show X _ = X _
  refine congrArg X (funext fun a => Fin.ext ?_)
  match a with
  | ⟨0, _⟩ => show win0_6.index t 0 * 5 + 1 * (y 0).val = (y 0).val; rw [h0]; omega
  | ⟨1, _⟩ => show win0_6.index t 1 * 128 + 1 * (y 1).val = (y 1).val; rw [h1]; omega

/-- Every point's block of the root biases is the whole array. -/
theorem iblk6_eq (c : Dev nD) (t : Fin cfg0.N) :
    (iblk m c 6 t : Vec Ideal S5x128 .f32) = (V m c main_arg4 : S5x128.Idx → EReal) :=
  blk6_read c t (V m c main_arg4 : S5x128.Idx → EReal)

/-- The body's result on a block at any block index `j`: `Spec.node` of row `j 0` of the block's mask and feature rows. -/
theorem out0_7_at (x0 x1 : Vec Ideal S4000x128 .f32) (x2 : Vec Ideal S4000x5 .f32) (x3 : Vec Ideal S5x128x128 .f32)
    (x4 : Vec Ideal S5x128 .f32) (x5 : Vec Ideal S5x128x128 .f32) (x6 : Vec Ideal S5x128 .f32) (j : S4000x128.Idx) :
    out0_7 (F := Ideal) x0 x1 x2 x3 x4 x5 x6 j
      = Cert.Spec.node (fun b => x2 (ix2 (j 0) b)) (fun d => x0 (ix2 (j 0) d)) (fun d => x1 (ix2 (j 0) d))
          (fun b o d => x3 (ix3 b o d)) (fun b o => x4 (ix2 b o)) (fun b o d => x5 (ix3 b o d)) (fun b o => x6 (ix2 b o)) (j 1) := by
  obtain ⟨p, q, rfl⟩ : ∃ (p : Fin 4000) (q : Fin 128), j = ix2 p q := ⟨j 0, j 1, eq_ix2 j⟩
  exact Cert.KernelIdeal.Payload.out0_7_apply x0 x1 x2 x3 x4 x5 x6 p q

/-- Reading point `t`'s block of a [200000, 128] array through the result window reads the array at the block's
    indices (for an arbitrary array). -/
theorem blk7_read (c : Dev nD) (t : Fin cfg0.N) (X : S200000x128.Idx → EReal) (j : S4000x128.Idx) :
    ((cfg0.win 7).blk t).view.read (Elt Ideal) X j = X (((cfg0.win 7).blk t).view.emb j) := by
  rw [View.read_apply]
  rfl

/-- WHAT POINT `t` WRITES BACK is block `t` of `G` of the arrays as the region finds them. -/
theorem flushed7_eq (c : Dev nD) (t : Fin cfg0.N) :
    (dats m 0 c).flushed 7 t = ((cfg0.win 7).blk t).view.read (Elt Ideal)
      (G (V m c main_v21) (V m c main_arg0) (V m c main_v25) (V m c main_arg1) (V m c main_arg2) (V m c main_arg3) (V m c main_arg4)) := by
  rw [Value.flushed7]
  obtain ⟨-, -, -, -, -, -, -, ⟨h0, h1⟩⟩ := idx_facts t
  funext j
  refine Eq.trans ?_ (blk7_read c t _ j).symm
  have e0 : ((((cfg0.win 7).blk t).view.emb j) 0).val = 4000 * t.val + (j 0).val := by
    show win0_7.index t 0 * 4000 + 1 * (j 0).val = _; rw [h0]; omega
  have e1 : ((((cfg0.win 7).blk t).view.emb j) 1).val = (j 1).val := by
    show win0_7.index t 1 * 128 + 1 * (j 1).val = _; rw [h1]; omega
  refine (out0_7_at (iblk m c 0 t) (iblk m c 1 t) (iblk m c 2 t) (iblk m c 3 t) (iblk m c 4 t) (iblk m c 5 t) (iblk m c 6 t) j).trans ?_
  unfold G
  have hq : (j 1 : Fin 128) = (((cfg0.win 7).blk t).view.emb j) 1 := Fin.ext e1.symm
  have hmask : (fun b : Fin 5 => (iblk m c 2 t : Vec Ideal S4000x5 .f32) (ix2 (j 0) b))
      = fun b : Fin 5 => (V m c main_v25 : S200000x5.Idx → EReal) (ix2 ((((cfg0.win 7).blk t).view.emb j) 0) b) :=
    funext fun b => iblk2_apply m c t (ix2 (j 0) b) (ix2 ((((cfg0.win 7).blk t).view.emb j) 0) b) e0 rfl
  have hneigh : (fun d : Fin 128 => (iblk m c 0 t : Vec Ideal S4000x128 .f32) (ix2 (j 0) d))
      = fun d : Fin 128 => (V m c main_v21 : S200000x128.Idx → EReal) (ix2 ((((cfg0.win 7).blk t).view.emb j) 0) d) :=
    funext fun d => iblk0_apply m c t (ix2 (j 0) d) (ix2 ((((cfg0.win 7).blk t).view.emb j) 0) d) e0 rfl
  have hx : (fun d : Fin 128 => (iblk m c 1 t : Vec Ideal S4000x128 .f32) (ix2 (j 0) d))
      = fun d : Fin 128 => (V m c main_arg0 : S200000x128.Idx → EReal) (ix2 ((((cfg0.win 7).blk t).view.emb j) 0) d) :=
    funext fun d => iblk1_apply m c t (ix2 (j 0) d) (ix2 ((((cfg0.win 7).blk t).view.emb j) 0) d) e0 rfl
  rw [hmask, hneigh, hx, iblk3_eq m c t, iblk4_eq m c t, iblk5_eq m c t, iblk6_eq m c t, hq]

/-- An index of the result array is in point `t`'s block iff each coordinate is in the block's range on its axis. -/
theorem mem_blk7 (t : Fin cfg0.N) (i : S200000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v26).slice (win0_7.rect t)).set ↔ _
  rw [View.set_slice_whole, Rect.mem_set_unit]
  exact Iff.rfl

/-- Every index of the result array is in some point's block: row `r` in block `r / 4000`. -/
theorem cover7 (i : S200000x128.Idx) :
    ∃ t : Fin cfg0.N, (cfg0.win 7).flush t = true ∧ i ∈ ((cfg0.win 7).blk t).view.set := by
  have hN : cfg0.N = 50 := by decide +kernel
  have hi0 : (i 0).val < 200000 := (i 0).isLt
  have hi1 : (i 1).val < 128 := (i 1).isLt
  refine ⟨⟨(i 0).val / 4000, by rw [hN]; omega⟩, flush0_7 _, ?_⟩
  rw [mem_blk7]
  obtain ⟨-, -, -, -, -, -, -, ⟨h0, h1⟩⟩ := idx_facts ⟨(i 0).val / 4000, by rw [hN]; omega⟩
  intro a
  match a with
  | ⟨0, _⟩ =>
    show win0_7.index _ (0 : Fin 2) * 4000 ≤ (i 0).val ∧ (i 0).val < win0_7.index _ (0 : Fin 2) * 4000 + 4000
    rw [h0]; show (i 0).val / 4000 * 4000 ≤ (i 0).val ∧ (i 0).val < (i 0).val / 4000 * 4000 + 4000; omega
  | ⟨1, _⟩ =>
    show win0_7.index _ (1 : Fin 2) * 128 ≤ (i 1).val ∧ (i 1).val < win0_7.index _ (1 : Fin 2) * 128 + 128
    rw [h1]; omega

/-- THE RESULT ARRAY after the run is `G` of the arrays as the region finds them. -/
theorem final7 (c : Dev nD) : (dats m 0 c).arrAt 7 cfg0.N
    = G (V m c main_v21) (V m c main_arg0) (V m c main_v25) (V m c main_arg1) (V m c main_arg2) (V m c main_arg3) (V m c main_arg4) :=
  (dats m 0 c).arrAt_eq_of_cover 7 _ (fun t _ => flushed7_eq m c t) (cover7)

/-- The run, read: the result array at `G` of the region-entry arrays, the arguments unchanged. -/
theorem run : θ_run defs (onTc (τ := τ) (main (F := Ideal))) ⟨m, fun _ => 0, ρ⟩ fun r => ∀ c : Dev nD,
      r.2.mem ((c : Thread nD τ).loc main_v26)
        = G (V m c main_v21) (V m c main_arg0) (V m c main_v25) (V m c main_arg1) (V m c main_arg2) (V m c main_arg3) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2⟩) (Value.run_blocks m ρ)

end Cert.KernelIdeal.Blocks

end
-- ==== Proof.OneHot.lean ====
/-
  The one-hot mask read at an entry.

  The mask of shape [200000, 5] compares, at `(n, b)`, node `n`'s bucket word with the word `b` (an iota along the
  second axis) and converts the resulting bit to a float: `1` where they are equal, `0` elsewhere. For a bucket word
  that is `b0 ≤ 4` the row is the indicator of `b0`.
-/
import proofs.«162380_j936302871077_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.OneHot

open Cert.KernelIdeal Cert.KernelIdeal.Facts₀ Idealize.ShloMosaic Idealize.ShloMosaic.ValueIdx

variable {F : FTy → Type} [FloatOps F]

/-- The mask as one term of the bucket words: the words as a column, broadcast along the five buckets, compared with
    the iota `0 … 4` broadcast along the nodes, the bit converted to a float. -/
def onehot (bk : IVec S200000 32) : FVec F S200000x5 .f32 :=
  uitofp (F := F) .f32 (cmpi .eq
    (broadcastInDim S200000x5 ![0, 1] bcast_S200000x1_S200000x5_0_1 (broadcastInDim S200000x1 ![0] bcast_S200000_S200000x1_0 bk))
    (broadcastInDim S200000x5 ![0, 1] bcast_S1x5_S200000x5_0_1 (iotaInDim S1x5 32 1)))

/-- The column of bucket words broadcast along the buckets, read at `(n, b)`, is node `n`'s word. -/
private theorem left_apply (bk : IVec S200000 32) (n : Fin 200000) (b : Fin 5) :
    broadcastInDim S200000x5 ![0, 1] bcast_S200000x1_S200000x5_0_1
      (broadcastInDim S200000x1 ![0] bcast_S200000_S200000x1_0 bk) (ix2 n b) = bk (ix1 n) := by
  rw [broadcastInDim_apply _ bcast_S200000x1_S200000x5_0_1 _ (ix2 n b) (ix2 n ⟨0, Nat.one_pos⟩) (fun a => match a with
    | ⟨0, _⟩ => by show n.val = if (200000 : Nat) = 1 then 0 else n.val; rw [if_neg (by decide)]
    | ⟨1, _⟩ => by show 0 = if (1 : Nat) = 1 then 0 else b.val; rw [if_pos rfl])]
  exact broadcastInDim_apply _ bcast_S200000_S200000x1_0 bk _ (ix1 n) (fun a => match a with
    | ⟨0, _⟩ => by show n.val = if (200000 : Nat) = 1 then 0 else n.val; rw [if_neg (by decide)])

/-- The iota `0 … 4` broadcast along the nodes, read at `(n, b)`, is the word `b`. -/
private theorem right_apply (n : Fin 200000) (b : Fin 5) :
    broadcastInDim S200000x5 ![0, 1] bcast_S1x5_S200000x5_0_1 (iotaInDim S1x5 32 1) (ix2 n b)
      = BitVec.ofNat 32 b.val := by
  rw [broadcastInDim_apply _ bcast_S1x5_S200000x5_0_1 _ (ix2 n b) (ix2 ⟨0, Nat.one_pos⟩ b) (fun a => match a with
    | ⟨0, _⟩ => by show 0 = if (1 : Nat) = 1 then 0 else n.val; rw [if_pos rfl]
    | ⟨1, _⟩ => by show b.val = if (5 : Nat) = 1 then 0 else b.val; rw [if_neg (by decide)])]
  rfl

/-- Two words below five are equal exactly when the numbers are: both are below `2 ^ 32`, where a number is its
    own residue. -/
private theorem ofNat_eq_iff (b b0 : Fin 5) : BitVec.ofNat 32 b0.val = BitVec.ofNat 32 b.val ↔ b = b0 := by
  constructor
  · intro h
    have h' := congrArg BitVec.toNat h
    rw [BitVec.toNat_ofNat, BitVec.toNat_ofNat] at h'
    have hb := b.isLt
    have hb0 := b0.isLt
    apply Fin.ext
    omega
  · intro h
    rw [h]

/-- Row `n` of the mask, for a bucket word `b0 ≤ 4`, is the indicator of `b0`. -/
theorem onehot_apply (bk : IVec S200000 32) (n : Fin 200000) (b b0 : Fin 5)
    (hb : bk (ix1 n) = BitVec.ofNat 32 b0.val) :
    onehot (F := Ideal) bk (ix2 n b) = if b = b0 then (1 : EReal) else 0 := by
  -- at the ideal instance the conversion of a one-bit word is its value as a real number
  unfold onehot
  show (((IntOp.cmpi .eq
      (broadcastInDim S200000x5 ![0, 1] bcast_S200000x1_S200000x5_0_1
        (broadcastInDim S200000x1 ![0] bcast_S200000_S200000x1_0 bk) (ix2 n b))
      (broadcastInDim S200000x5 ![0, 1] bcast_S1x5_S200000x5_0_1 (iotaInDim S1x5 32 1) (ix2 n b))).toNat : ℝ) : EReal) = _
  rw [left_apply, right_apply, hb]
  unfold IntOp.cmpi
  by_cases h : b = b0
  · rw [if_pos h, h]
    simp
  · rw [if_neg h]
    have hne : BitVec.ofNat 32 b0.val ≠ BitVec.ofNat 32 b.val := fun e => h ((ofNat_eq_iff b b0).mp e)
    simp [hne]

end Cert.KernelIdeal.OneHot

end
-- ==== Proof.HostPrefix.lean ====
/-
  The arrays the kernel's region finds, as functions of the program's arguments.

  Before the region, the host computes from the edge list the degree of every node (a sum of one `1` per incoming edge),
  the sum of the features of every node's in-neighbours, the mean (the sum over the degree clipped below at 1), the
  bucket word (the truncated degree, at most 4) and the one-hot mask of the bucket words. The reference program begins
  with the very same operations, so the mean-neighbour array and the bucket words the region finds are the reference's
  own stages of the same arguments, and the mask is the indicator array of those bucket words.

  The forty operations are read in their four stretches (up to the clip; the clip; up to the bucket words; the
  indicator), each stretch as a map from what it finds to what it leaves.
-/
import proofs.«162380_j936302871077_1_alg».proof.Proof.Gen.KernelIdeal.Frame
import proofs.«162380_j936302871077_1_alg».proof.Proof.RefRead
import proofs.«162380_j936302871077_1_alg».proof.Proof.OneHot
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- Two lines of operations one after the other leave what the second leaves of what the first leaves. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => simp only [List.cons_append, StableHlo.after_cons, ih]

variable (m : (ℓ : Loc nD τ sig) → Buf (Elt F) ℓ)

theorem V_split (c : Dev nD) (b : Ref sig .tc) :
    V m c b = StableHlo.after hostOps0_3 (StableHlo.after hostOps0_2 (StableHlo.after hostOps0_1 (StableHlo.after hostOps0 (fun b => m (c, b))))) b := by
  show StableHlo.after (List.flatten [hostOps0, hostOps0_1, hostOps0_2, hostOps0_3]) (fun b => m (c, b)) b = _
  rw [List.flatten_cons, List.flatten_cons, List.flatten_cons, List.flatten_cons, List.flatten_nil, List.append_nil,
    after_append, after_append, after_append]

/-- The last stretch leaves, in the mask's buffer, the indicator array of the bucket words it finds. -/
theorem stretch3_v25 (W : Valuation τ sig (Elt F)) :
    (StableHlo.after hostOps0_3 W (Proc.devRef .tc main_v25) : (⟨S200000x5, .f32⟩ : BufTy).Contents (Elt F))
      = Cert.KernelIdeal.OneHot.onehot (F := F) (W (Proc.devRef .tc main_v24)) := by
  simp only [hostOps0_3]
  after_results
  rfl

/-- The last stretch writes neither the bucket words nor the mean-neighbour array. -/
theorem stretch3_v24 (W : Valuation τ sig (Elt F)) :
    StableHlo.after hostOps0_3 W (Proc.devRef .tc main_v24) = W (Proc.devRef .tc main_v24) :=
  StableHlo.after_of_forall_not_mem (b := Proc.devRef .tc main_v24) _ _ (List.forall_iff_forall_mem.mp (by
    simp only [hostOps0_3, List.Forall, StableHlo.nullary_writes, StableHlo.unary_writes, StableHlo.binary_writes, Finset.mem_singleton]
    repeat' apply And.intro
    all_goals exact StableHlo.devRef_ne_of_ne (by decide)))

theorem stretch3_v21 (W : Valuation τ sig (Elt F)) :
    StableHlo.after hostOps0_3 W (Proc.devRef .tc main_v21) = W (Proc.devRef .tc main_v21) :=
  StableHlo.after_of_forall_not_mem (b := Proc.devRef .tc main_v21) _ _ (List.forall_iff_forall_mem.mp (by
    simp only [hostOps0_3, List.Forall, StableHlo.nullary_writes, StableHlo.unary_writes, StableHlo.binary_writes, Finset.mem_singleton]
    repeat' apply And.intro
    all_goals exact StableHlo.devRef_ne_of_ne (by decide)))

/-- The third stretch: the mean-neighbour array is the neighbour sum over the clipped degree (a column, broadcast
    along the features), and the bucket word the truncated degree, at most 4. -/
theorem stretch2_v21 (W : Valuation τ sig (Elt F)) :
    (StableHlo.after hostOps0_2 W (Proc.devRef .tc main_v21) : (⟨S200000x128, .f32⟩ : BufTy).Contents (Elt F))
      = Host.divf (W (Proc.devRef .tc main_v17))
          (broadcastInDim S200000x128 ![0, 1] Facts₀.bcast_S200000x1_S200000x128_0_1 (broadcastInDim S200000x1 ![0] Facts₀.bcast_S200000_S200000x1_0 (W (Proc.devRef .tc main_v18)))) := by
  simp only [hostOps0_2]
  after_results

theorem stretch2_v24 (W : Valuation τ sig (Elt F)) :
    (StableHlo.after hostOps0_2 W (Proc.devRef .tc main_v24) : (⟨S200000, .i32⟩ : BufTy).Contents (Elt F))
      = minsi (fptosi (F := F) 32 (W (Proc.devRef .tc main_v7))) (broadcastInDim S200000 ![] Facts₀.bcast_S_S200000 (constantI S_ 32 4#32)) := by
  simp only [hostOps0_2]
  after_results

/-- The clip: the larger of the degree and the constant it is clipped at; the degree and the neighbour sum stay. -/
theorem stretch1_v18 (W : Valuation τ sig (Elt F)) :
    (StableHlo.after hostOps0_1 W (Proc.devRef .tc main_v18) : (⟨S200000, .f32⟩ : BufTy).Contents (Elt F))
      = maximumf (broadcastInDim S200000 ![] Facts₀.bcast_S_S200000 (W (Proc.devRef .tc main_cst_3))) (W (Proc.devRef .tc main_v7)) := by
  simp only [hostOps0_1]
  after_results
  try rfl

theorem stretch1_v7 (W : Valuation τ sig (Elt F)) :
    StableHlo.after hostOps0_1 W (Proc.devRef .tc main_v7) = W (Proc.devRef .tc main_v7) :=
  StableHlo.after_of_forall_not_mem (b := Proc.devRef .tc main_v7) _ _ (List.forall_iff_forall_mem.mp (by
    simp only [hostOps0_1, List.Forall, StableHlo.nullary_writes, StableHlo.unary_writes, StableHlo.binary_writes, Finset.mem_singleton]
    repeat' apply And.intro
    all_goals exact StableHlo.devRef_ne_of_ne (by decide)))

theorem stretch1_v17 (W : Valuation τ sig (Elt F)) :
    StableHlo.after hostOps0_1 W (Proc.devRef .tc main_v17) = W (Proc.devRef .tc main_v17) :=
  StableHlo.after_of_forall_not_mem (b := Proc.devRef .tc main_v17) _ _ (List.forall_iff_forall_mem.mp (by
    simp only [hostOps0_1, List.Forall, StableHlo.nullary_writes, StableHlo.unary_writes, StableHlo.binary_writes, Finset.mem_singleton]
    repeat' apply And.intro
    all_goals exact StableHlo.devRef_ne_of_ne (by decide)))

set_option maxHeartbeats 4000000 in
set_option maxRecDepth 8192 in
/-- The first stretch leaves the degree: the reference's degree stage of the edge list. -/
theorem stretch0_v7 (M : Valuation τ sig (Elt F)) :
    (StableHlo.after hostOps0 M (Proc.devRef .tc main_v7) : (⟨S200000, .f32⟩ : BufTy).Contents (Elt F))
      = Cert.ReferenceIdeal.ReadP.val_main_v7 (F := F) (M (Proc.devRef .tc main_arg5)) := by
  simp only [hostOps0]
  after_results_simp
  rfl

set_option maxHeartbeats 4000000 in
set_option maxRecDepth 8192 in
/-- … the constant the degree is clipped at … -/
theorem stretch0_cst_3 (M : Valuation τ sig (Elt F)) :
    (StableHlo.after hostOps0 M (Proc.devRef .tc main_cst_3) : (⟨S_, .f32⟩ : BufTy).Contents (Elt F))
      = Cert.ReferenceIdeal.ReadP.val_main_cst_3 (F := F) := by
  simp only [hostOps0]
  after_results_simp
  rfl

set_option maxHeartbeats 4000000 in
set_option maxRecDepth 8192 in
/-- … and the neighbour sum: the reference's stage of the features and the edge list. -/
theorem stretch0_v17 (M : Valuation τ sig (Elt F)) :
    (StableHlo.after hostOps0 M (Proc.devRef .tc main_v17) : (⟨S200000x128, .f32⟩ : BufTy).Contents (Elt F))
      = Cert.ReferenceIdeal.ReadP.val_main_v17 (F := F) (M (Proc.devRef .tc main_arg0)) (M (Proc.devRef .tc main_arg5)) := by
  simp only [hostOps0]
  after_results_simp
  rfl

/-- THE BUCKET WORDS the region finds are the reference's bucket words of the edge list. -/
theorem V_main_v24 (c : Dev nD) :
    (V m c main_v24 : (⟨S200000, .i32⟩ : BufTy).Contents (Elt F))
      = Cert.ReferenceIdeal.ReadP.val_main_v24 (F := F) (m ((c : Thread nD τ).loc main_arg5)) := by
  rw [V_split, stretch3_v24, stretch2_v24, stretch1_v7, stretch0_v7]
  rfl

/-- THE MEAN-NEIGHBOUR ARRAY the region finds is the reference's, of the features and the edge list. -/
theorem V_main_v21 (c : Dev nD) :
    (V m c main_v21 : (⟨S200000x128, .f32⟩ : BufTy).Contents (Elt F))
      = Cert.ReferenceIdeal.ReadP.val_main_v21 (F := F) (m ((c : Thread nD τ).loc main_arg0)) (m ((c : Thread nD τ).loc main_arg5)) := by
  rw [V_split, stretch3_v21, stretch2_v21, stretch1_v17, stretch1_v18, stretch0_v17, stretch0_v7, stretch0_cst_3]
  rfl

/-- THE MASK the region finds is the indicator array of those bucket words. -/
theorem V_main_v25 (c : Dev nD) :
    (V m c main_v25 : (⟨S200000x5, .f32⟩ : BufTy).Contents (Elt F))
      = Cert.KernelIdeal.OneHot.onehot (F := F) (Cert.ReferenceIdeal.ReadP.val_main_v24 (F := F) (m ((c : Thread nD τ).loc main_arg5))) := by
  rw [V_split, stretch3_v25, ← V_main_v24 m c, V_split, stretch3_v24]

end Cert.KernelIdeal.HostValue

end
-- ==== Proof.Bucket.lean ====
/-
  The bucket of a node is one of 0 … 4.

  A node's degree is a sum, started at zero, of one `1` per edge whose target is the node: as an extended real it is
  at least zero. Truncating a non-negative extended real to a 32-bit integer (clamped to the integer range, `+∞` to the
  largest integer) gives a non-negative integer, and the signed minimum of that with 4 is one of 0, 1, 2, 3, 4.
-/
import proofs.«162380_j936302871077_1_alg».proof.Proof.RefRead
import Idealize.ShloMosaic.Lib.ValueIdx
import Idealize.ShloMosaic.Lib.Pipeline.Value
import Idealize.ShloMosaic.PureOps.Ideal.Laws

noncomputable section

open scoped BigOperators

namespace Cert.ReferenceIdeal.Bucket

open Cert.ReferenceIdeal Cert.ReferenceIdeal.ReadP Idealize.ShloMosaic Idealize.ShloMosaic.ValueIdx

/-- The single-precision word `0x3F800000` (sign 0, exponent 127, fraction 0) denotes the real number one. -/
private theorem ofBits_one_f32 : Ideal.ofBits .f32 0x3F800000#32 = 1 := by
  simp [Ideal.ofBits, Ideal.ieee, -EReal.coe_mul]; norm_num

/-- The degree — zero plus a sum of ones — is non-negative. -/
theorem deg_nonneg (x5 : (⟨S2x625000, .i32⟩ : BufTy).Contents (Elt Ideal)) (i : S200000.Idx) :
    (0 : EReal) ≤ val_main_v7 (F := Ideal) x5 i := by
  -- the degree at `i` is the zero operand at `i` plus the sum of the updates, each `1`, that land on `i`
  show (0 : EReal) ≤ Ideal.hostScatterAdd scatter_S200000_S625000x1_S625000_n_0_0_1 (val_main_v5 (F := Ideal))
    (val_main_v6 (F := Ideal) x5) (val_main_v4 (F := Ideal)) i
  unfold Ideal.hostScatterAdd
  apply add_nonneg
  · rw [val_main_v5_apply, val_main_cst_0_apply]
    show (0 : EReal) ≤ Ideal.ofBits .f32 0x00000000#32
    rw [Ideal.ofBits_zero_f32]
  · apply Finset.sum_nonneg
    intro j _
    rw [val_main_v4_apply, val_main_cst_apply]
    show (0 : EReal) ≤ Ideal.ofBits .f32 0x3F800000#32
    rw [ofBits_one_f32]
    exact zero_le_one

/-- Truncating a non-negative extended real, clamped to `[-2^31, 2^31 - 1]`, lands in `[0, 2^31 - 1]`: `-∞` is excluded,
    `+∞` goes to the upper end, and a real `r ≥ 0` to `max (-2^31) (min (2^31 - 1) ⌊r⌋)` with `⌊r⌋ ≥ 0`. -/
private theorem toIntClamped_nonneg (x : EReal) (hx : 0 ≤ x) :
    0 ≤ Ideal.toIntClamped (-((2 ^ 31 : Nat) : Int)) (((2 ^ 31 : Nat) : Int) - 1) x ∧
      Ideal.toIntClamped (-((2 ^ 31 : Nat) : Int)) (((2 ^ 31 : Nat) : Int) - 1) x ≤ ((2 ^ 31 : Nat) : Int) - 1 := by
  induction x using EReal.rec with
  | bot => exact absurd hx (by simp)
  | top => simp
  | coe r =>
    have hr : (0 : ℝ) ≤ r := by exact_mod_cast hx
    rw [Ideal.toIntClamped_coe, if_pos hr]
    have hf : (0 : Int) ≤ ⌊r⌋ := Int.floor_nonneg.mpr hr
    constructor
    · apply le_max_of_le_right
      apply le_min _ hf
      norm_num
    · apply max_le
      · norm_num
      · exact min_le_left _ _

/-- The bucket word of node `n`, the signed minimum of the truncated degree and 4, is one of 0 … 4. -/
theorem bucket_range (x5 : (⟨S2x625000, .i32⟩ : BufTy).Contents (Elt Ideal)) (n : Fin 200000) :
    ∃ b : Fin 5, val_main_v24 (F := Ideal) x5 (ix1 n) = BitVec.ofNat 32 b.val := by
  rw [val_main_v24_apply, val_main_v22_apply, val_main_v23_apply, val_main_c_4_apply]
  show ∃ b : Fin 5, IntOp.minsi (Ideal.fptosi 32 (val_main_v7 (F := Ideal) x5 (ix1 n))) 4#32 = BitVec.ofNat 32 b.val
  -- the truncated degree is the word of a natural number `m < 2^31`
  obtain ⟨h0, h1⟩ := toIntClamped_nonneg _ (deg_nonneg x5 (ix1 n))
  unfold Ideal.fptosi
  generalize Ideal.toIntClamped _ _ (val_main_v7 (F := Ideal) x5 (ix1 n)) = k at h0 h1 ⊢
  obtain ⟨m, rfl⟩ := Int.eq_ofNat_of_zero_le h0
  have hm : m < 2147483648 := by omega
  rw [BitVec.ofInt_natCast]
  -- read as a signed integer, that word is `m` itself, and the word `4` is `4`
  have hti : (BitVec.ofNat 32 m).toInt = (m : Int) := by
    rw [BitVec.toInt_eq_toNat_cond, BitVec.toNat_ofNat]
    have hmod : m % 2 ^ 32 = m := Nat.mod_eq_of_lt (by omega)
    rw [hmod, if_pos (by omega)]
  have h4 : (4#32 : BitVec 32).toInt = 4 := by decide
  unfold IntOp.minsi
  -- the signed minimum is `m` when `m < 4` and `4` otherwise
  by_cases hk : m < 4
  · refine ⟨⟨m, by omega⟩, ?_⟩
    have hs : (BitVec.ofNat 32 m).slt 4#32 = true := by
      simp only [BitVec.slt, hti, h4, decide_eq_true_eq]
      omega
    rw [if_pos hs]
  · refine ⟨⟨4, by omega⟩, ?_⟩
    have hs : ¬ ((BitVec.ofNat 32 m).slt 4#32 = true) := by
      simp only [BitVec.slt, hti, h4, decide_eq_true_eq]
      omega
    rw [if_neg hs]

end Cert.ReferenceIdeal.Bucket

end
-- ==== Proof.RefValue.lean ====
/-
  The reference's result read at a node `n` and an output coordinate `o`.

  The reference computes every bucket's layer of every node — an array indexed (bucket, node, coordinate) — and then
  looks up, for node `n`, the entry (bucket of `n`, `n`, `o`). The bucket word is first wrapped (a negative word has 5
  added) and the lookup clamps each start coordinate into range; for a bucket word that is one of 0 … 4 neither does
  anything, and the node coordinate `n < 200000` is in range as it stands. So the result is the layer of the node's
  own bucket, `Spec.layer` at that bucket's weights and biases.
-/
import proofs.«162380_j936302871077_1_alg».proof.Proof.RefRead
import proofs.«162380_j936302871077_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.ReadP Idealize.ShloMosaic Idealize.ShloMosaic.ValueIdx

/-- A 32-bit word written from a natural number below `2 ^ 31` reads back, signed, as that number. -/
private theorem toInt_toNat_ofNat (k : Nat) (hk : k < 2147483648) : (BitVec.ofNat 32 k).toInt.toNat = k := by
  rw [BitVec.toInt_eq_toNat_cond, BitVec.toNat_ofNat]
  have h : k % 2 ^ 32 = k := Nat.mod_eq_of_lt (by omega)
  rw [h]
  split <;> omega

/-- Such a word is not negative: the signed comparison with zero answers the bit `0`. -/
private theorem cmpi_slt_zero_ofNat (k : Nat) (hk : k < 2147483648) :
    IntOp.cmpi .slt (BitVec.ofNat 32 k) 0#32 = 0#1 := by
  have h : (BitVec.ofNat 32 k).slt 0#32 = false := by
    rw [BitVec.slt, BitVec.toInt_eq_toNat_cond, BitVec.toNat_ofNat]
    have h : k % 2 ^ 32 = k := Nat.mod_eq_of_lt (by omega)
    rw [h]
    simp only [BitVec.toInt_zero, decide_eq_false_iff_not, not_lt]
    split <;> omega
  show BitVec.ofBool ((BitVec.ofNat 32 k).slt 0#32) = 0#1
  rw [h]; rfl

/-- The wrapped bucket word of a node whose bucket word is `b ≤ 4` is the word itself. -/
private theorem v41_of (x5 : (⟨S2x625000, .i32⟩ : BufTy).Contents (Elt Ideal)) (n : Fin 200000) (b : Fin 5)
    (hb : val_main_v24 (F := Ideal) x5 (ix1 n) = BitVec.ofNat 32 b.val) :
    val_main_v41 (F := Ideal) x5 (ix1 n) = BitVec.ofNat 32 b.val := by
  rw [val_main_v41_apply, val_main_v38_apply, val_main_v37_apply, val_main_c_5_apply, hb,
    cmpi_slt_zero_ofNat b.val (by have := b.isLt; omega), select_zero]

/-- The wrapped node number of node `n` is `n`. -/
private theorem v46_of (n : Fin 200000) :
    val_main_v46 (F := Ideal) (ix1 n) = BitVec.ofNat 32 n.val := by
  rw [val_main_v46_apply, val_main_v43_apply, val_main_v42_apply, val_main_c_7_apply, val_main_v36_apply]
  show Scalar.select (IntOp.cmpi .slt (BitVec.ofNat 32 n.val) 0#32) _ _ = _
  rw [cmpi_slt_zero_ofNat n.val (by have := n.isLt; omega), select_zero]

/-- The index array's first column holds the wrapped bucket words … -/
private theorem v49_col0 (x5 : (⟨S2x625000, .i32⟩ : BufTy).Contents (Elt Ideal)) (n : Fin 200000) :
    val_main_v49 (F := Ideal) x5 (ix2 n 0) = val_main_v41 (F := Ideal) x5 (ix1 n) := by
  unfold val_main_v49
  rw [concatenate_pair_apply_left (s₁ := S200000x1) (s₂ := S200000x1) (1 : Fin S200000x2.rank) _ _ _ (ix2 n 0) rfl
    (ix2 n (0 : Fin 1) : S200000x1.Idx)
    (fun c => match c with
      | ⟨0, _⟩ => rfl
      | ⟨1, _⟩ => rfl)]
  rw [val_main_v47_apply]
  exact congrArg _ (funext fun a => match a with | ⟨0, _⟩ => rfl)

/-- … and its second column the wrapped node numbers. -/
private theorem v49_col1 (x5 : (⟨S2x625000, .i32⟩ : BufTy).Contents (Elt Ideal)) (n : Fin 200000) :
    val_main_v49 (F := Ideal) x5 (ix2 n 1) = val_main_v46 (F := Ideal) (ix1 n) := by
  unfold val_main_v49
  rw [concatenate_pair_apply_right (s₁ := S200000x1) (s₂ := S200000x1) (1 : Fin S200000x2.rank) _ _ _ (ix2 n 1) rfl rfl
    (ix2 n (0 : Fin 1) : S200000x1.Idx)
    (fun c => match c with
      | ⟨0, _⟩ => fun _ => rfl
      | ⟨1, _⟩ => fun h => absurd rfl h)
    rfl]
  rw [val_main_v48_apply]
  exact congrArg _ (funext fun a => match a with | ⟨0, _⟩ => rfl)

/-- Operand axis 0 (the bucket axis, collapsed): the start is the bucket word clamped into `[0, 4]`, which a word
    `b ≤ 4` already is. -/
private theorem gather_axis0 (idx : IVec S200000x2 32) (n : Fin 200000) (o : Fin 128) (b : Fin 5)
    (h0 : idx (ix2 n 0) = BitVec.ofNat 32 b.val) :
    gather_S5x200000x128_S200000x2_S200000x128_1_01_n_n_01_1_11128.start (ix2 n o) idx 0 + gather_S5x200000x128_S200000x2_S200000x128_1_01_n_n_01_1_11128.batchCoord (ix2 n o) 0 + gather_S5x200000x128_S200000x2_S200000x128_1_01_n_n_01_1_11128.offCoord (ix2 n o) 0 = b.val := by
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (0 : Fin 3) ∈ gather_S5x200000x128_S200000x2_S200000x128_1_01_n_n_01_1_11128.startIndexMap by decide)]
  have hsi : gather_S5x200000x128_S200000x2_S200000x128_1_01_n_n_01_1_11128.siIdx (ix2 n o) ⟨List.idxOf (0 : Fin 3) gather_S5x200000x128_S200000x2_S200000x128_1_01_n_n_01_1_11128.startIndexMap, List.idxOf_lt_length_iff.2 (by decide)⟩
      = ix2 n 0 := by
    funext c; refine Fin.ext ?_
    match c with
    | ⟨0, _⟩ => rfl
    | ⟨1, _⟩ => rfl
  rw [hsi, h0, toInt_toNat_ofNat b.val (by have := b.isLt; omega)]
  show min b.val (5 - 1) = b.val
  have := b.isLt; omega

/-- Operand axis 1 (the node axis, collapsed): the start is the node word clamped into `[0, 199999]`, which `n` is. -/
private theorem gather_axis1 (idx : IVec S200000x2 32) (n : Fin 200000) (o : Fin 128)
    (h1 : idx (ix2 n 1) = BitVec.ofNat 32 n.val) :
    gather_S5x200000x128_S200000x2_S200000x128_1_01_n_n_01_1_11128.start (ix2 n o) idx 1 + gather_S5x200000x128_S200000x2_S200000x128_1_01_n_n_01_1_11128.batchCoord (ix2 n o) 1 + gather_S5x200000x128_S200000x2_S200000x128_1_01_n_n_01_1_11128.offCoord (ix2 n o) 1 = n.val := by
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (1 : Fin 3) ∈ gather_S5x200000x128_S200000x2_S200000x128_1_01_n_n_01_1_11128.startIndexMap by decide)]
  have hsi : gather_S5x200000x128_S200000x2_S200000x128_1_01_n_n_01_1_11128.siIdx (ix2 n o) ⟨List.idxOf (1 : Fin 3) gather_S5x200000x128_S200000x2_S200000x128_1_01_n_n_01_1_11128.startIndexMap, List.idxOf_lt_length_iff.2 (by decide)⟩
      = ix2 n 1 := by
    funext c; refine Fin.ext ?_
    match c with
    | ⟨0, _⟩ => rfl
    | ⟨1, _⟩ => rfl
  rw [hsi, h1, toInt_toNat_ofNat n.val (by have := n.isLt; omega)]
  show min n.val (200000 - 1) = n.val
  have := n.isLt; omega

/-- Operand axis 2 (the coordinate axis, the one offset axis): no start component, the result's own coordinate. -/
private theorem gather_axis2 (idx : IVec S200000x2 32) (n : Fin 200000) (o : Fin 128) :
    gather_S5x200000x128_S200000x2_S200000x128_1_01_n_n_01_1_11128.start (ix2 n o) idx 2 + gather_S5x200000x128_S200000x2_S200000x128_1_01_n_n_01_1_11128.batchCoord (ix2 n o) 2 + gather_S5x200000x128_S200000x2_S200000x128_1_01_n_n_01_1_11128.offCoord (ix2 n o) 2 = o.val := by
  rw [GatherDims.batchCoord_eq_zero _ _ _ List.not_mem_nil, Nat.add_zero]
  unfold GatherDims.start
  rw [dif_neg (show ¬ (2 : Fin 3) ∈ gather_S5x200000x128_S200000x2_S200000x128_1_01_n_n_01_1_11128.startIndexMap by decide), Nat.zero_add]
  unfold GatherDims.offCoord
  rw [dif_pos (show (2 : Fin 3) ∈ gather_S5x200000x128_S200000x2_S200000x128_1_01_n_n_01_1_11128.sKept by decide)]
  rfl

/-- THE LOOKUP READ AT `(n, o)`: when row `n` of the index array holds the words of a bucket `b ≤ 4` and of the node
    `n` itself, the clamps change neither, and the lookup reads the operand at `(b, n, o)`. -/
private theorem gather_read {α : Type} (X : S5x200000x128.Idx → α) (idx : IVec S200000x2 32)
    (n : Fin 200000) (o : Fin 128) (b : Fin 5)
    (h0 : idx (ix2 n 0) = BitVec.ofNat 32 b.val) (h1 : idx (ix2 n 1) = BitVec.ofNat 32 n.val) :
    Host.gather gather_S5x200000x128_S200000x2_S200000x128_1_01_n_n_01_1_11128 X idx (ix2 n o) = X (ix3 b n o) := by
  unfold Host.gather
  congr 1
  funext a
  refine Fin.ext ?_
  match a with
  | ⟨0, _⟩ => exact gather_axis0 idx n o b h0
  | ⟨1, _⟩ => exact gather_axis1 idx n o h1
  | ⟨2, _⟩ => exact gather_axis2 idx n o

/-- The array of all five buckets' layers, read at `(b, n, o)`: bucket `b`'s layer of node `n`'s two rows. The
    reference multiplies weight by feature where `Spec.layer` multiplies feature by weight. -/
private theorem v35_read (x0 : (⟨S200000x128, .f32⟩ : BufTy).Contents (Elt Ideal)) (x1 : (⟨S5x128x128, .f32⟩ : BufTy).Contents (Elt Ideal))
    (x2 : (⟨S5x128, .f32⟩ : BufTy).Contents (Elt Ideal)) (x3 : (⟨S5x128x128, .f32⟩ : BufTy).Contents (Elt Ideal))
    (x4 : (⟨S5x128, .f32⟩ : BufTy).Contents (Elt Ideal)) (x5 : (⟨S2x625000, .i32⟩ : BufTy).Contents (Elt Ideal))
    (n : Fin 200000) (o : Fin 128) (b : Fin 5) :
    val_main_v35 (F := Ideal) x0 x1 x2 x3 x4 x5 (ix3 b n o)
      = Cert.Spec.layer (fun d => val_main_v21 (F := Ideal) x0 x5 (ix2 n d)) (fun d => x0 (ix2 n d))
          (fun o d => x1 (ix3 b o d)) (fun o => x2 (ix2 b o)) (fun o d => x3 (ix3 b o d)) (fun o => x4 (ix2 b o)) o := by
  have e1 : ∀ k : Fin 128, lidx_main_v25 (idx_main_v26 (ix3 b n o)) k = ix3 b o k := fun k =>
    funext fun a => Fin.ext (by match a with | ⟨0, _⟩ => rfl | ⟨1, _⟩ => rfl | ⟨2, _⟩ => rfl)
  have e2 : ∀ k : Fin 128, ridx_main_v25 (idx_main_v26 (ix3 b n o)) k = ix2 n k := fun k =>
    funext fun a => Fin.ext (by match a with | ⟨0, _⟩ => rfl | ⟨1, _⟩ => rfl)
  have e3 : ∀ k : Fin 128, lidx_main_v30 (idx_main_v31 (ix3 b n o)) k = ix3 b o k := fun k =>
    funext fun a => Fin.ext (by match a with | ⟨0, _⟩ => rfl | ⟨1, _⟩ => rfl | ⟨2, _⟩ => rfl)
  have e4 : ∀ k : Fin 128, ridx_main_v30 (idx_main_v31 (ix3 b n o)) k = ix2 n k := fun k =>
    funext fun a => Fin.ext (by match a with | ⟨0, _⟩ => rfl | ⟨1, _⟩ => rfl)
  have e5 : idx_main_v27 (idx_main_v28 (ix3 b n o)) = ix2 b o :=
    funext fun a => Fin.ext (by match a with | ⟨0, _⟩ => rfl | ⟨1, _⟩ => rfl)
  have e6 : idx_main_v33 (idx_main_v34 (ix3 b n o)) = ix2 b o :=
    funext fun a => Fin.ext (by match a with | ⟨0, _⟩ => rfl | ⟨1, _⟩ => rfl)
  rw [val_main_v35_apply, val_main_v32_apply, val_main_v29_apply, val_main_v26_apply, val_main_v25_apply,
    val_main_v28_apply, val_main_v27_apply, val_main_v31_apply, val_main_v30_apply, val_main_v34_apply,
    val_main_v33_apply, e5, e6]
  simp only [Ideal.addf_def, e1, e2, e3, e4]
  unfold Cert.Spec.layer
  have s1 : ∑ k : Fin 128, x1 (ix3 b o k) * val_main_v21 (F := Ideal) x0 x5 (ix2 n k)
      = ∑ d : Fin 128, val_main_v21 (F := Ideal) x0 x5 (ix2 n d) * x1 (ix3 b o d) :=
    Finset.sum_congr rfl fun d _ => mul_comm _ _
  have s2 : ∑ k : Fin 128, x3 (ix3 b o k) * x0 (ix2 n k) = ∑ d : Fin 128, x0 (ix2 n d) * x3 (ix3 b o d) :=
    Finset.sum_congr rfl fun d _ => mul_comm _ _
  rw [s1, s2]

/-- The reference's result at `(n, o)`, for a node whose bucket word is `b ≤ 4`: bucket `b`'s layer of the node's mean
    neighbour row (the reference's own stage `val_main_v21`) and its own feature row. -/
theorem val_main_v50_apply (x0 : (⟨S200000x128, .f32⟩ : BufTy).Contents (Elt Ideal)) (x1 : (⟨S5x128x128, .f32⟩ : BufTy).Contents (Elt Ideal))
    (x2 : (⟨S5x128, .f32⟩ : BufTy).Contents (Elt Ideal)) (x3 : (⟨S5x128x128, .f32⟩ : BufTy).Contents (Elt Ideal))
    (x4 : (⟨S5x128, .f32⟩ : BufTy).Contents (Elt Ideal)) (x5 : (⟨S2x625000, .i32⟩ : BufTy).Contents (Elt Ideal))
    (n : Fin 200000) (o : Fin 128) (b : Fin 5)
    (hb : val_main_v24 (F := Ideal) x5 (ix1 n) = BitVec.ofNat 32 b.val) :
    val_main_v50 (F := Ideal) x0 x1 x2 x3 x4 x5 (ix2 n o)
      = Cert.Spec.layer (fun d => val_main_v21 (F := Ideal) x0 x5 (ix2 n d)) (fun d => x0 (ix2 n d))
          (fun o d => x1 (ix3 b o d)) (fun o => x2 (ix2 b o)) (fun o d => x3 (ix3 b o d)) (fun o => x4 (ix2 b o)) o := by
  rw [show val_main_v50 (F := Ideal) x0 x1 x2 x3 x4 x5
      = Host.gather gather_S5x200000x128_S200000x2_S200000x128_1_01_n_n_01_1_11128
          (val_main_v35 (F := Ideal) x0 x1 x2 x3 x4 x5) (val_main_v49 (F := Ideal) x5) from rfl,
    gather_read _ _ n o b
      ((v49_col0 x5 n).trans (v41_of x5 n b hb))
      ((v49_col1 x5 n).trans (v46_of n))]
  exact v35_read x0 x1 x2 x3 x4 x5 n o b

end Cert.ReferenceIdeal.RefValue

end
-- ==== Proof.lean ====
/-
  The certificate of a degree-bucketed graph layer: a kernel against its reference, over the extended reals.

  Both programs compute, from the edge list, every node's degree (one `1` added per incoming edge), the mean of its
  in-neighbours' feature rows (their sum over the degree clipped below at 1) and its bucket, the truncated degree capped
  at 4. Each of the five buckets has an affine layer of a node's mean-neighbour row and own feature row. The kernel
  gets a one-hot mask of the buckets and, block of 4000 nodes by block, adds up all five layers each multiplied by its
  mask column; the reference forms all five layers of all nodes and looks up, per node, the layer of its bucket.

  The two agree because a node's mask row is the indicator of its bucket, and a sum of five extended reals weighted by an
  indicator is the indicated one — `0 · y = 0`, `1 · y = y`, `0 + y = y` hold for every extended real, so nothing needs
  to be finite. The one thing that has to be known about the inputs-derived data is that the bucket word is one of
  0 … 4: the degree is a sum of ones from zero, hence not negative, so its truncation is not negative, and the cap
  bounds it above. Then the mask row really is an indicator, and the reference's lookup — which would wrap a negative
  word and clamp one out of range — reads exactly the bucket's layer.

  Modules: Spec (the layer, the masked sum, the indicator law); Payload (the kernel body's block result at an index);
  Blocks (from the 50 blocks to the whole result array); HostPrefix (the arrays the kernel region finds are the
  reference's own stages of the arguments, and the mask is their indicator array); OneHot (the indicator array at an
  entry); Bucket (the bucket word is one of 0 … 4); RefValue (the reference's lookup at an index).
-/
import proofs.«162380_j936302871077_1_alg».proof.Defs
import proofs.«162380_j936302871077_1_alg».proof.Proof.Gen.Kernel
import proofs.«162380_j936302871077_1_alg».proof.Proof.Gen.Kernel.Skeleton
import proofs.«162380_j936302871077_1_alg».proof.Proof.Gen.Kernel.Launch
import proofs.«162380_j936302871077_1_alg».proof.Proof.Gen.Kernel.Points
import proofs.«162380_j936302871077_1_alg».proof.Proof.Gen.Kernel.Frame
import proofs.«162380_j936302871077_1_alg».proof.Proof.Gen.KernelIdeal
import proofs.«162380_j936302871077_1_alg».proof.Proof.Gen.KernelIdeal.Skeleton
import proofs.«162380_j936302871077_1_alg».proof.Proof.Gen.KernelIdeal.Launch
import proofs.«162380_j936302871077_1_alg».proof.Proof.Gen.KernelIdeal.Points
import proofs.«162380_j936302871077_1_alg».proof.Proof.Gen.KernelIdeal.Frame
import proofs.«162380_j936302871077_1_alg».proof.Proof.Gen.ReferenceIdeal
import proofs.«162380_j936302871077_1_alg».proof.Proof.Gen.Pre_finite_inputs
import proofs.«162380_j936302871077_1_alg».proof.Proof.Gen.KernelIdeal.Value
import proofs.«162380_j936302871077_1_alg».proof.Proof.RefRun
import proofs.«162380_j936302871077_1_alg».proof.Proof.RefRead
import proofs.«162380_j936302871077_1_alg».proof.Proof.Spec
import proofs.«162380_j936302871077_1_alg».proof.Proof.Blocks
import proofs.«162380_j936302871077_1_alg».proof.Proof.HostPrefix
import proofs.«162380_j936302871077_1_alg».proof.Proof.OneHot
import proofs.«162380_j936302871077_1_alg».proof.Proof.Bucket
import proofs.«162380_j936302871077_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

section Value

open Cert.KernelIdeal Cert.KernelIdeal.Gen

variable (m : (ℓ : Loc nD τ sig) → Buf (Elt Ideal) ℓ)

/-- The kernel's result array — the masked sum of the five bucket layers, node by node — is the reference's result of
    the same arguments: at node `n` the mask row is the indicator of the node's bucket `b ≤ 4`, so the masked sum is
    bucket `b`'s layer, which is what the reference looks up. -/
theorem result_eq (c : Dev nD) :
    Cert.KernelIdeal.Blocks.G (V m c main_v21) (V m c main_arg0) (V m c main_v25) (V m c main_arg1) (V m c main_arg2)
        (V m c main_arg3) (V m c main_arg4)
      = Cert.ReferenceIdeal.ReadP.val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [Cert.KernelIdeal.HostValue.V_main_v21 m c, Cert.KernelIdeal.HostValue.V_main_v25 m c, V_main_arg0, V_main_arg1, V_main_arg2,
    V_main_arg3, V_main_arg4]
  funext i
  obtain ⟨n, o, rfl⟩ : ∃ (n : Fin 200000) (o : Fin 128), i = ix2 n o := ⟨i 0, i 1, eq_ix2 i⟩
  obtain ⟨b, hb⟩ := Cert.ReferenceIdeal.Bucket.bucket_range (m ((c : Thread nD τ).loc main_arg5)) n
  refine Eq.trans ?_ (Cert.ReferenceIdeal.RefValue.val_main_v50_apply (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) n o b hb).symm
  unfold Cert.KernelIdeal.Blocks.G
  exact Cert.Spec.node_indicator b _
    (fun b' => Cert.KernelIdeal.OneHot.onehot_apply (Cert.ReferenceIdeal.ReadP.val_main_v24 (F := Ideal) (m ((c : Thread nD τ).loc main_arg5))) n b' b hb)
    _ _ _ _ _ _ o

end Value

/-- The word-level kernel terminates, faults nowhere and leaves its arguments as they were: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result array. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq]
  obtain ⟨a0, a1, a2, a3, a4, a5⟩ := hagree c
  rw [a0, a1, a2, a3, a4, a5]
  exact (result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
